-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64 : Shape := ⟨1, ![64]⟩
abbrev S1250x1024 : Shape := ⟨2, ![1250, 1024]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S1250x1024 : S_.BroadcastsInDim S1250x1024 (![] : Fin 0 → Fin S1250x1024.rank)
  reducesTo_S1250x1024_S_d0_1 : S1250x1024.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg3 : IVec S64 32) (main_v13 : IVec S_ 1) (main_v16 : IVec S1250x1024 1) : IVec S_ 1 :=
  let main_c_5 : IVec S_ 1 := constantI S_ 1 1#1
  let main_v17 : IVec S_ 1 := (fun x v => Host.reduce IntOp.andi x v reducesTo_S1250x1024_S_d0_1 h_S_) main_v16 main_c_5
  let main_v18 : IVec S_ 1 := andi main_v13 main_v17
  let main_c_6 : IVec S_ 32 := constantI S_ 32 0#32
  let main_v19 : IVec S64 32 := broadcastInDim S64 ![] bcast_S_S64 main_c_6
  let main_v20 : IVec S64 1 := cmpi .sge main_arg3 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v18 main_v21
  let main_c_8 : IVec S_ 32 := constantI S_ 32 512#32
  let main_v23 : IVec S64 32 := broadcastInDim S64 ![] bcast_S_S64 main_c_8
  let main_v24 : IVec S64 1 := cmpi .sle main_arg3 main_v23
  let main_c_9 : IVec S_ 1 := constantI S_ 1 1#1
  let main_v25 : IVec S_ 1 := (fun x v => Host.reduce IntOp.andi x v reducesTo_S64_S_d0 h_S_) main_v24 main_c_9
  let main_v26 : IVec S_ 1 := andi main_v22 main_v25
  main_v26

def fn {F : FTy → Type} [FloatOps F] (main_arg0 : FVec F S64x512x1024 .f32) (main_arg1 : FVec F S64x512x1024 .f32) (main_arg2 : FVec F S64x512x1024 .f32) (main_arg3 : IVec S64 32) (main_arg4 : IVec S64 32) (main_arg5 : FVec F S1250x1024 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S64x512x1024 .f32 := Host.absf main_arg1
  let main_cst_0 : FVec F S_ .f32 := constant S_ .f32 0x7F800000#32
  let main_v5 : FVec F S64x512x1024 .f32 := broadcastInDim S64x512x1024 ![] bcast_S_S64x512x1024 main_cst_0
  let main_v6 : IVec S64x512x1024 1 := cmpf .olt main_v4 main_v5
  let main_c_1 : IVec S_ 1 := constantI S_ 1 1#1
  let main_v7 : IVec S_ 1 := (fun x v => Host.reduce IntOp.andi x v reducesTo_S64x512x1024_S_d0_1_2 h_S_) main_v6 main_c_1
  let main_v8 : IVec S_ 1 := andi main_v3 main_v7
  let main_v9 : FVec F S64x512x1024 .f32 := Host.absf main_arg2
  let main_cst_2 : FVec F S_ .f32 := constant S_ .f32 0x7F800000#32
  let main_v10 : FVec F S64x512x1024 .f32 := broadcastInDim S64x512x1024 ![] bcast_S_S64x512x1024 main_cst_2
  let main_v11 : IVec S64x512x1024 1 := cmpf .olt main_v9 main_v10
  let main_c_3 : IVec S_ 1 := constantI S_ 1 1#1
  let main_v12 : IVec S_ 1 := (fun x v => Host.reduce IntOp.andi x v reducesTo_S64x512x1024_S_d0_1_2 h_S_) main_v11 main_c_3
  let main_v13 : IVec S_ 1 := andi main_v8 main_v12
  let main_v14 : FVec F S1250x1024 .f32 := Host.absf main_arg5
  let main_cst_4 : FVec F S_ .f32 := constant S_ .f32 0x7F800000#32
  let main_v15 : FVec F S1250x1024 .f32 := broadcastInDim S1250x1024 ![] bcast_S_S1250x1024 main_cst_4
  let main_v16 : IVec S1250x1024 1 := cmpf .olt main_v14 main_v15
  fn_part1 (F := F) main_arg3 main_v13 main_v16
-- ==== Kernel.lean ====
abbrev S64x512x1024 : Shape := ⟨3, ![64, 512, 1024]⟩
abbrev S64 : Shape := ⟨1, ![64]⟩
abbrev S1250x1024 : Shape := ⟨2, ![1250, 1024]⟩
abbrev S1024x1024 : Shape := ⟨2, ![1024, 1024]⟩
abbrev S_ : Shape := ⟨0, ![]⟩
abbrev S1048576 : Shape := ⟨1, ![1048576]⟩
abbrev S1x512x1024 : Shape := ⟨3, ![1, 512, 1024]⟩
abbrev S512x1024 : Shape := ⟨2, ![512, 1024]⟩
abbrev S524288 : Shape := ⟨1, ![524288]⟩
abbrev S1 : Shape := ⟨1, ![1]⟩

abbrev nBuf : Space → Nat
  | .hbm => 13
  | .vmem => 14
  | .smem => 1
  | _ => 0

abbrev bufTy : (tb : Table) → Fin (tcTables nBuf tb) → BufTy
  | .hbm, ⟨0, _⟩ => ⟨S64x512x1024, .f32⟩
  | .hbm, ⟨1, _⟩ => ⟨S64x512x1024, .f32⟩
  | .hbm, ⟨2, _⟩ => ⟨S64x512x1024, .f32⟩
  | .hbm, ⟨3, _⟩ => ⟨S64, .i32⟩
  | .hbm, ⟨4, _⟩ => ⟨S1250x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1048576, .f32⟩
  | .hbm, ⟨10, _⟩ => ⟨S64x512x1024, .f32⟩
  | .hbm, ⟨11, _⟩ => ⟨S64x512x1024, .f32⟩
  | .hbm, ⟨12, _⟩ => ⟨S64x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S524288, .f32⟩
  | .local _ .smem, ⟨0, _⟩ => ⟨S64, .i32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (v1 : BitVec 32) : BitVec 32 :=
  let c1024_i32 : BitVec 32 := 1024#32
  let v2 : BitVec 32 := Scalar.muli v1 c1024_i32
  v2

def k0_off2 (v1 : BitVec 32) : Fin 1 → Nat :=
  let c1024_i32 : BitVec 32 := 1024#32
  let v2 : BitVec 32 := Scalar.muli v1 c1024_i32
  let v3 : BitVec 32 := v2
  ![v3.toNat]

def k0_chk1 (v1 : BitVec 32) : Prop :=
  (1024 ∣ (k0_mult1 v1).toNat) ∧
  (∀ a, (k0_off2 v1) a + S524288.size a ≤ S1048576.size a)
instance k0_chk1.dec : ∀ (v1 : BitVec 32), Decidable (k0_chk1 v1) := fun v1 => decidable_of_iff' _ (Iff.of_eq (k0_chk1.eq_1 v1))
theorem k0_mult1_dvd : ∀ (v1 : BitVec 32) (k0_hw1 : k0_chk1 v1), 1024 ∣ (k0_mult1 v1).toNat := fun v1 k0_hw1 => k0_hw1.1
theorem k0_off2_inb : ∀ (v1 : BitVec 32) (k0_hw1 : k0_chk1 v1), ∀ a, (k0_off2 v1) a + S524288.size a ≤ S1048576.size a := fun v1 k0_hw1 => k0_hw1.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S1250x1024_S1024x1024_0_0 : S1250x1024.Slices ![0, 0] S1024x1024
  bcast_S_S1024x1024 : S_.BroadcastsInDim S1024x1024 (![] : Fin 0 → Fin S1024x1024.rank)
  shapeCasts_S1024x1024_S1048576 : S1024x1024.ShapeCasts S1048576
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S512x1024_S1x512x1024 : S512x1024.ShapeCasts S1x512x1024
  inb_S524288_S524288_0 : ∀ a, (![0] : Fin 1 → Nat) a + S524288.size a ≤ S524288.size a
  h_S524288 : 0 < S524288.numel
  shapeCasts_S524288_S512x1024 : S524288.ShapeCasts S512x1024
  hcc0_scratch1 : 13 + S_.numel ≤ 14
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S64x512x1024.size a
  hwx0_1 : ∀ i : grid0.Coords, EltTy.bits .f32 = 32 ∨ (Rect.block (s := S64x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S64x512x1024.size a
  hwx0_2 : ∀ i : grid0.Coords, EltTy.bits .f32 = 32 ∨ (Rect.block (s := S64x512x1024) S1x512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S1024x1024.size a
  hwx0_3 : ∀ i : grid0.Coords, EltTy.bits .f32 = 32 ∨ (Rect.block (s := S1024x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_5 i = cc0_transform_5 i'
  hinb0_4 : ∀ (i : grid0.Coords) a, (cc0_transform_5 i a + 1) * S1x512x1024.size a ≤ S64x512x1024.size a
  hwx0_4 : ∀ i : grid0.Coords, EltTy.bits .f32 = 32 ∨ (Rect.block (s := S64x512x1024) S1x512x1024.size (cc0_transform_5 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_6 i = cc0_transform_6 i'
  hinb0_5 : ∀ (i : grid0.Coords) a, (cc0_transform_6 i a + 1) * S1x512x1024.size a ≤ S64x512x1024.size a
  hwx0_5 : ∀ i : grid0.Coords, EltTy.bits .f32 = 32 ∨ (Rect.block (s := S64x512x1024) S1x512x1024.size (cc0_transform_6 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_7 i = cc0_transform_7 i'
  hinb0_6 : ∀ (i : grid0.Coords) a, (cc0_transform_7 i a + 1) * S1x512x1024.size a ≤ S64x512x1024.size a
  hwx0_6 : ∀ i : grid0.Coords, EltTy.bits .f32 = 32 ∨ (Rect.block (s := S64x512x1024) S1x512x1024.size (cc0_transform_7 i) (hinb0_6 i)).WholeWords (EltTy.packing .f32)

variable [Facts₀]

abbrev cc0_scratch1 : DmaSems sig S_ := SemArray.consecutive 13 S_ hcc0_scratch1

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_arg1) S1x512x1024.size reads0_1 false false 2 stage0_1 sem0_1 nbuf0_1 hstage0_1

abbrev spec0_2 : Pipeline.WinSpec sig grid0.rank :=
  Pipeline.WinSpec.ofSpec (Memref.whole main_arg2) S1x512x1024.size reads0_2 false false 2 stage0_2 sem0_2 nbuf0_2 hstage0_2

abbrev spec0_3 : Pipeline.WinSpec sig grid0.rank :=
  Pipeline.WinSpec.ofSpec (Memref.whole main_v2) S512x1024.size reads0_3 false true 1 stage0_3 sem0_3 nbuf0_3 hstage0_3

abbrev spec0_4 : Pipeline.WinSpec sig grid0.rank :=
  Pipeline.WinSpec.ofSpec (Memref.whole main_v4_0) S1x512x1024.size reads0_4 true false 2 stage0_4 sem0_4 nbuf0_4 hstage0_4

abbrev spec0_5 : Pipeline.WinSpec sig grid0.rank :=
  Pipeline.WinSpec.ofSpec (Memref.whole main_v4_1) S1x512x1024.size reads0_5 true false 2 stage0_5 sem0_5 nbuf0_5 hstage0_5

abbrev spec0_6 : Pipeline.WinSpec sig grid0.rank :=
  Pipeline.WinSpec.ofSpec (Memref.whole main_v4_2) S1x512x1024.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_5 | 5 => cc0_transform_6 | 6 => cc0_transform_7 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S64x512x1024 : Shape := ⟨3, ![64, 512, 1024]⟩
abbrev S64 : Shape := ⟨1, ![64]⟩
abbrev S1250x1024 : Shape := ⟨2, ![1250, 1024]⟩
abbrev S1024x1024 : Shape := ⟨2, ![1024, 1024]⟩
abbrev S_ : Shape := ⟨0, ![]⟩
abbrev S512x1024 : Shape := ⟨2, ![512, 1024]⟩
abbrev S1x512x1024 : Shape := ⟨3, ![1, 512, 1024]⟩
abbrev S64x1 : Shape := ⟨2, ![64, 1]⟩
abbrev S512 : Shape := ⟨1, ![512]⟩
abbrev S1x512 : Shape := ⟨2, ![1, 512]⟩
abbrev S64x512 : Shape := ⟨2, ![64, 512]⟩
abbrev S64x512x1 : Shape := ⟨3, ![64, 512, 1]⟩

abbrev nBuf : Space → Nat
  | .hbm => 46
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x512x1024, .f32⟩
  | .hbm, ⟨2, _⟩ => ⟨S64x512x1024, .f32⟩
  | .hbm, ⟨3, _⟩ => ⟨S64, .i32⟩
  | .hbm, ⟨4, _⟩ => ⟨S64, .i32⟩
  | .hbm, ⟨5, _⟩ => ⟨S1250x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S512x1024, .f32⟩
  | .hbm, ⟨11, _⟩ => ⟨S1x512x1024, .f32⟩
  | .hbm, ⟨12, _⟩ => ⟨S64x512x1024, .f32⟩
  | .hbm, ⟨13, _⟩ => ⟨S64x512x1024, .f32⟩
  | .hbm, ⟨14, _⟩ => ⟨S64x1, .i32⟩
  | .hbm, ⟨15, _⟩ => ⟨S512, .i32⟩
  | .hbm, ⟨16, _⟩ => ⟨S1x512, .i32⟩
  | .hbm, ⟨17, _⟩ => ⟨S64x512, .i32⟩
  | .hbm, ⟨18, _⟩ => ⟨S64x512, .i32⟩
  | .hbm, ⟨19, _⟩ => ⟨S64x512, .i32⟩
  | .hbm, ⟨20, _⟩ => ⟨S_, .i32⟩
  | .hbm, ⟨21, _⟩ => ⟨S64x512, .i32⟩
  | .hbm, ⟨22, _⟩ => ⟨S64x512, .i1⟩
  | .hbm, ⟨23, _⟩ => ⟨S_, .i32⟩
  | .hbm, ⟨24, _⟩ => ⟨S64x512, .i32⟩
  | .hbm, ⟨25, _⟩ => ⟨S64x512, .i32⟩
  | .hbm, ⟨26, _⟩ => ⟨S64x512, .i32⟩
  | .hbm, ⟨27, _⟩ => ⟨S64x512x1, .i32⟩
  | .hbm, ⟨28, _⟩ => ⟨S64x512x1024, .f32⟩
  | .hbm, ⟨29, _⟩ => ⟨S64x512x1024, .f32⟩
  | .hbm, ⟨30, _⟩ => ⟨S64x1, .i32⟩
  | .hbm, ⟨31, _⟩ => ⟨S512, .i32⟩
  | .hbm, ⟨32, _⟩ => ⟨S1x512, .i32⟩
  | .hbm, ⟨33, _⟩ => ⟨S64x512, .i32⟩
  | .hbm, ⟨34, _⟩ => ⟨S64x512, .i32⟩
  | .hbm, ⟨35, _⟩ => ⟨S64x512, .i32⟩
  | .hbm, ⟨36, _⟩ => ⟨S_, .i32⟩
  | .hbm, ⟨37, _⟩ => ⟨S64x512, .i32⟩
  | .hbm, ⟨38, _⟩ => ⟨S64x512, .i1⟩
  | .hbm, ⟨39, _⟩ => ⟨S_, .i32⟩
  | .hbm, ⟨40, _⟩ => ⟨S64x512, .i32⟩
  | .hbm, ⟨41, _⟩ => ⟨S64x512, .i32⟩
  | .hbm, ⟨42, _⟩ => ⟨S64x512, .i32⟩
  | .hbm, ⟨43, _⟩ => ⟨S64x512x1, .i32⟩
  | .hbm, ⟨44, _⟩ => ⟨S64x512x1024, .f32⟩
  | .hbm, ⟨45, _⟩ => ⟨S64x512x1024, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_1 : Ref sig .tc := ⟨.hbm, 36, rfl⟩
abbrev main_v27 : Ref sig .tc := ⟨.hbm, 37, rfl⟩
abbrev main_v28 : Ref sig .tc := ⟨.hbm, 38, rfl⟩
abbrev main_c_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  slices_S1250x1024_S1024x1024_0_0 : S1250x1024.Slices ![0, 0] S1024x1024
  bcast_S_S1024x1024 : S_.BroadcastsInDim S1024x1024 (![] : Fin 0 → Fin S1024x1024.rank)
  slices_S1024x1024_S512x1024_0_0 : S1024x1024.Slices ![0, 0] S512x1024
  bcast_S512x1024_S1x512x1024_1_2 : S512x1024.BroadcastsInDim S1x512x1024 (![1, 2] : Fin 2 → Fin S1x512x1024.rank)
  bcast_S1x512x1024_S64x512x1024_0_1_2 : S1x512x1024.BroadcastsInDim S64x512x1024 (![0, 1, 2] : Fin 3 → Fin S64x512x1024.rank)
  bcast_S64_S64x1_0 : S64.BroadcastsInDim S64x1 (![0] : Fin 1 → Fin S64x1.rank)
  bcast_S512_S1x512_1 : S512.BroadcastsInDim S1x512 (![1] : Fin 1 → Fin S1x512.rank)
  bcast_S64x1_S64x512_0_1 : S64x1.BroadcastsInDim S64x512 (![0, 1] : Fin 2 → Fin S64x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  gather_S1024x1024_S64x512x1_S64x512x1024_2_0_n_n_0_2_11024_wf : GatherDims.WF S1024x1024 S64x512x1 S64x512x1024 [2] [0] [] [0] [] 2 ![1, 1024]

variable [Facts₀]

def gather_S1024x1024_S64x512x1_S64x512x1024_2_0_n_n_0_2_11024 : GatherDims S1024x1024 S64x512x1 S64x512x1024 where
  offsetDims := [2]
  collapsedSliceDims := [0]
  operandBatchingDims := []
  startIndicesBatchingDims := []
  startIndexMap := [0]
  indexVectorDim := 2
  sliceSizes := ![1, 1024]
  wf := gather_S1024x1024_S64x512x1_S64x512x1024_2_0_n_n_0_2_11024_wf

class Facts : Prop extends Facts₀ where

variable [Facts]
-- ==== Proof.Words.lean ====
/-
  Arithmetic on the 32-bit offset words.

  An offset word w that is at least 0 and at most 512 as a signed integer is a natural number w ≤ 512.  Then
    * w * 1024 does not wrap: its value is 1024 w ≤ 524288, a multiple of 1024, and a window of 524288 entries
      starting there ends inside an array of 1048576 entries;
    * for a position r < 512 the sum w + r does not wrap and is not negative, so the signed value of the sum is
      the natural number w + r ≤ 1023, and adding 1024 to a negative sum never happens.
-/
import Idealize.ShloMosaic.PureOps.Ideal
import Idealize.ShloMosaic.Lib.StableHlo.Predicate

noncomputable section

namespace Cert.Words

open Idealize.ShloMosaic Idealize.ShloMosaic.StableHlo.Predicate

/-- A word that compares ≥ 0 and ≤ 512 as a signed integer is a natural number at most 512. -/
theorem toNat_le_of_cmp (w : BitVec 32) (h0 : IntOp.cmpi .sge w 0#32 = 1#1) (h1 : IntOp.cmpi .sle w 512#32 = 1#1) :
    w.toNat ≤ 512 := by
  unfold IntOp.cmpi at h0 h1
  rw [ofBool_eq_one_iff] at h0 h1
  simp only [BitVec.sle, decide_eq_true_eq] at h0 h1
  have hw := w.isLt
  have e0 : (0#32 : BitVec 32).toInt = 0 := by decide
  have e1 : (512#32 : BitVec 32).toInt = 512 := by decide
  rw [e0] at h0
  rw [e1] at h1
  rw [BitVec.toInt_eq_toNat_cond] at h0 h1
  split at h0 <;> omega

/-- The offset scaled by the row length, without wrap. -/
theorem mul_toNat (w : BitVec 32) (h : w.toNat ≤ 512) : (IntOp.muli w 1024#32).toNat = w.toNat * 1024 := by
  unfold IntOp.muli
  rw [BitVec.toNat_mul]
  have : (1024#32 : BitVec 32).toNat = 1024 := by decide
  rw [this]
  exact Nat.mod_eq_of_lt (by omega)

/-- The row word offset + position, without wrap. -/
theorem add_toNat (w : BitVec 32) (h : w.toNat ≤ 512) (r : Nat) (hr : r < 512) :
    (IntOp.addi w (BitVec.ofNat 32 r)).toNat = w.toNat + r := by
  unfold IntOp.addi
  rw [BitVec.toNat_add, BitVec.toNat_ofNat]
  have : r % 2 ^ 32 = r := Nat.mod_eq_of_lt (by omega)
  rw [this]
  exact Nat.mod_eq_of_lt (by omega)

/-- The row word is not negative: the reference's wrap-around of negative indices leaves it alone. -/
theorem select_nonneg (w : BitVec 32) (h : w.toNat ≤ 512) (r : Nat) (hr : r < 512) (alt : BitVec 32) :
    Scalar.select (IntOp.cmpi .slt (IntOp.addi w (BitVec.ofNat 32 r)) 0#32) alt (IntOp.addi w (BitVec.ofNat 32 r))
      = IntOp.addi w (BitVec.ofNat 32 r) := by
  have hs := add_toNat w h r hr
  have hne : ¬ IntOp.cmpi .slt (IntOp.addi w (BitVec.ofNat 32 r)) 0#32 = 1#1 := by
    rw [slt_iff_toNat (by omega) (by decide)]
    simp
  unfold Scalar.select
  exact if_neg hne

/-- Read as a signed integer the row word is offset + position. -/
theorem add_toInt_toNat (w : BitVec 32) (h : w.toNat ≤ 512) (r : Nat) (hr : r < 512) :
    (IntOp.addi w (BitVec.ofNat 32 r)).toInt.toNat = w.toNat + r := by
  have hs := add_toNat w h r hr
  rw [toInt_eq_toNat_of_lt (by omega), hs]
  rfl

end Cert.Words

end
-- ==== Proof.PreWords.lean ====
/-
  What the precondition says of the offset words.

  The precondition is one conjunction of "all entries" tests: four on the float arrays (every entry finite) and two
  on the offset words (every word ≥ 0; every word ≤ 512, both as signed integers).  The last two conjuncts, read at
  one word, give that the word is a natural number at most 512.  Nothing here looks at the float arrays, so the
  statement holds whatever the float values are read as.
-/
import proofs.«430714_j63221918597563_4_alg».proof.Pre_finite_inputs
import proofs.«430714_j63221918597563_4_alg».proof.Proof.Words
import Idealize.ShloMosaic.Lib.ReduceAll
import Idealize.ShloMosaic.Lib.Affine
import Idealize.ShloMosaic.Lib.ValueIdx

noncomputable section

namespace Cert.PreWords

open Idealize.ShloMosaic Idealize.ShloMosaic.ValueIdx Cert.Pre_finite_inputs

instance : Subsingleton S_.Idx := ⟨fun _ _ => funext fun d => d.elim0⟩

/-- Under the precondition every offset word is a natural number at most 512. -/
theorem offsets_le {F : FTy → Type} [FloatOps F] [Cert.Pre_finite_inputs.Facts]
    (a0 a1 a2 : FVec F S64x512x1024 .f32) (a3 a4 : IVec S64 32) (a5 : FVec F S1250x1024 .f32)
    (h : Cert.Pre_finite_inputs.fn (F := F) a0 a1 a2 a3 a4 a5 = fun _ => 1#1) (b : Fin 64) :
    (a3 (ix1 b)).toNat ≤ 512 := by
  have e := congrFun h ix0
  unfold Cert.Pre_finite_inputs.fn Cert.Pre_finite_inputs.fn_part1 at e
  simp only [andi, IntOp.andi_eq_one] at e
  obtain ⟨⟨-, e1⟩, e2⟩ := e
  have g0 := Host.reduce_andi_all _ _ _ _ _ e1 (ix1 b)
  have g1 := Host.reduce_andi_all _ _ _ _ _ e2 (ix1 b)
  exact Cert.Words.toNat_le_of_cmp _ g0 g1

end Cert.PreWords

end
-- ==== Proof.HypsKernel.lean ====
/-
  The side conditions of the frame, from the precondition.

  The pipeline's condition on the offset table is empty: no block index reads the table.  The body's one assumed
  condition is on the offset word w it loads at each grid point: that 1024 divides w * 1024 and that the 524288
  entries starting at w * 1024 lie inside the flattened table of 1048576 entries.  The word loaded is an entry of the
  offset argument as launched (no host operation writes it), and the precondition makes every entry a natural
  number at most 512, so w * 1024 = 1024 w ≤ 524288 without wrap and both parts hold.
-/
import proofs.«430714_j63221918597563_4_alg».proof.Defs
import proofs.«430714_j63221918597563_4_alg».proof.Proof.Gen.Kernel.Frame
import proofs.«430714_j63221918597563_4_alg».proof.Proof.Gen.Pre_finite_inputs
import proofs.«430714_j63221918597563_4_alg».proof.Proof.PreWords
import proofs.«430714_j63221918597563_4_alg».proof.Proof.Words

set_option maxRecDepth 16384

noncomputable section

namespace Cert.Kernel.HypsOfPre

open Cert.Kernel Cert.Kernel.Gen
open Idealize.ShloMosaic Idealize.ShloMosaic.TcCoe Idealize.SL.Sem Idealize.ShloMosaic.ValueIdx

variable (m : (ℓ : Loc nD τ sig) → Buf (Elt Bits) ℓ)

/-- No index map reads the table: the pipeline asks nothing of it. -/
theorem ok : Ok m := by
  show ok0 _
  unfold ok0
  trivial

/-- The assumed condition holds of a word that is a natural number at most 512. -/
theorem chk_of_le (w : BitVec 32) (h : w.toNat ≤ 512) : k0_chk1 w := by
  have hm := Cert.Words.mul_toNat w h
  refine ⟨?_, ?_⟩
  · show 1024 ∣ (IntOp.muli w 1024#32).toNat
    rw [hm]
    exact Dvd.intro_left _ rfl
  · intro a
    match a with
    | ⟨0, _⟩ =>
      show (IntOp.muli w 1024#32).toNat + 524288 ≤ 1048576
      rw [hm]
      omega

/-- A word read through the whole table, anywhere, is one of the table's entries: a bound on all entries bounds it. -/
theorem read_le (c : Dev nD) (f : TbBuf0 (F := Bits) c tbM0_0) (hf : ∀ j : S64.Idx, (f j).toNat ≤ 512)
    (R : Rect S64) (x : R.shape.Idx) : (tbM0_0.view.readAt (Elt Bits) R.toLoadRect f x).toNat ≤ 512 := by
  show (f (tbM0_0.view.emb (R.idx x))).toNat ≤ 512
  exact hf _

/-- The table as the region finds it is the offset argument as launched. -/
theorem tbl_eq : tbl m 0 = m (((0 : Dev nD) : Thread nD τ).loc main_arg3) := V_main_arg3 m 0

/-- Under the precondition every entry of the table is a natural number at most 512. -/
theorem tbl_le (hpre : Cert.Pre_Kernel m) (j : S64.Idx) : (tbl m 0 j).toNat ≤ 512 := by
  rw [tbl_eq, eq_ix1 j]
  exact Cert.PreWords.offsets_le _ _ _ _ _ _ (hpre 0) (j 0)

/-- The assumed condition holds at every grid point. -/
theorem hyps (hpre : Cert.Pre_Kernel m) : Hyps m (ok m) := fun c t =>
  chk_of_le _ (read_le c (tbl m 0) (tbl_le m hpre) _ _)

end Cert.Kernel.HypsOfPre

end
-- ==== Proof.HypsKernelIdeal.lean ====
/-
  The side conditions of the frame, from the precondition.

  The pipeline's condition on the offset table is empty: no block index reads the table.  The body's one assumed
  condition is on the offset word w it loads at each grid point: that 1024 divides w * 1024 and that the 524288
  entries starting at w * 1024 lie inside the flattened table of 1048576 entries.  The word loaded is an entry of the
  offset argument as launched (no host operation writes it), and the precondition makes every entry a natural
  number at most 512, so w * 1024 = 1024 w ≤ 524288 without wrap and both parts hold.
-/
import proofs.«430714_j63221918597563_4_alg».proof.Defs
import proofs.«430714_j63221918597563_4_alg».proof.Proof.Gen.KernelIdeal.Frame
import proofs.«430714_j63221918597563_4_alg».proof.Proof.Gen.Pre_finite_inputs
import proofs.«430714_j63221918597563_4_alg».proof.Proof.PreWords
import proofs.«430714_j63221918597563_4_alg».proof.Proof.Words

set_option maxRecDepth 16384

noncomputable section

namespace Cert.KernelIdeal.HypsOfPre

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- No index map reads the table: the pipeline asks nothing of it. -/
theorem ok : Ok m := by
  show ok0 _
  unfold ok0
  trivial

/-- The assumed condition holds of a word that is a natural number at most 512. -/
theorem chk_of_le (w : BitVec 32) (h : w.toNat ≤ 512) : k0_chk1 w := by
  have hm := Cert.Words.mul_toNat w h
  refine ⟨?_, ?_⟩
  · show 1024 ∣ (IntOp.muli w 1024#32).toNat
    rw [hm]
    exact Dvd.intro_left _ rfl
  · intro a
    match a with
    | ⟨0, _⟩ =>
      show (IntOp.muli w 1024#32).toNat + 524288 ≤ 1048576
      rw [hm]
      omega

/-- A word read through the whole table, anywhere, is one of the table's entries: a bound on all entries bounds it. -/
theorem read_le (c : Dev nD) (f : TbBuf0 (F := Ideal) c tbM0_0) (hf : ∀ j : S64.Idx, (f j).toNat ≤ 512)
    (R : Rect S64) (x : R.shape.Idx) : (tbM0_0.view.readAt (Elt Ideal) R.toLoadRect f x).toNat ≤ 512 := by
  show (f (tbM0_0.view.emb (R.idx x))).toNat ≤ 512
  exact hf _

/-- The table as the region finds it is the offset argument as launched. -/
theorem tbl_eq : tbl m 0 = m (((0 : Dev nD) : Thread nD τ).loc main_arg3) := V_main_arg3 m 0

/-- Under the precondition every entry of the table is a natural number at most 512. -/
theorem tbl_le (hpre : Cert.Pre_KernelIdeal m) (j : S64.Idx) : (tbl m 0 j).toNat ≤ 512 := by
  rw [tbl_eq, eq_ix1 j]
  exact Cert.PreWords.offsets_le _ _ _ _ _ _ (hpre 0) (j 0)

/-- The assumed condition holds at every grid point. -/
theorem hyps (hpre : Cert.Pre_KernelIdeal m) : Hyps m (ok m) := fun c t =>
  chk_of_le _ (read_le c (tbl m 0) (tbl_le m hpre) _ _)

end Cert.KernelIdeal.HypsOfPre

end
-- ==== Proof.KernelPieces.lean ====
/-
  What one grid point leaves in the three output blocks.

  At a grid point the body loads the offset word w, starts a copy of the 524288 entries of the flattened table that
  begin at entry w * 1024 into its scratch, stores (first array's block) + (fixed table block) into the first output
  block, waits for the copy, loads the scratch whole, and stores (second array's block) + scratch and (third array's
  block) + scratch, the scratch read as 512 rows of 1024, into the other two output blocks.  Each output block is
  written by one store that covers it, so what the block holds afterwards is that store's value; and the scratch,
  filled whole by the one copy and then loaded whole, holds the copied window.
-/
import proofs.«430714_j63221918597563_4_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- A load of a whole buffer after one delivery that filled the whole buffer reads what was delivered. -/
theorem readCov_whole {Val : EltTy → Type} [∀ e, Nonempty (Val e)] {sig : RefSig} {κ : Kind} {sp : Space} {S : Shape}
    {e : EltTy} (v : View sig κ sp S e) {off : Fin S.rank → Nat} (h : off = fun _ => 0)
    (inb : ∀ a, off a + S.size a ≤ S.size a) (w : S.Idx → Val e) :
    v.readCov [(⟨Rect.whole S, w⟩ : View.Piece Val S e)] (Rect.unit off S.size inb).toLoadRect = w := by
  subst h
  exact View.readCov_unit_zero v rfl inb w

/-- The 524288 entries of the flattened table that start at the offset word's entry w * 1024. -/
def window (c : Dev nD) (fh0 : HbBuf0 (F := F) c hbM0_0) (w : BitVec 32) (hw : k0_chk1 w) : Vec F S524288 .f32 :=
  View.read (Elt F) ((Memref.whole main_v3 : Memref sig .tc .hbm S1048576 .f32).slice
    (Rect.unit (s := S1048576) (k0_off2 w) S524288.size (k0_off2_inb w hw)) (fun _ => rfl)).view fh0

/-- Entry q of the window is entry w * 1024 + q of the flattened table. -/
theorem window_apply (c : Dev nD) (fh0 : HbBuf0 (F := F) c hbM0_0) (w : BitVec 32) (hw : k0_chk1 w)
    (j : S524288.Idx) (p : S1048576.Idx) (hp : (p 0).val = (IntOp.muli w 1024#32).toNat + (j 0).val) :
    window c fh0 w hw j = fh0 p := by
  unfold window
  rw [View.read_apply]
  simp only [cast_eq]
  congr 1
  funext a
  apply Fin.ext
  match a with
  | ⟨0, _⟩ =>
    simp only [View.emb_slice, Function.Embedding.trans_apply, View.emb_whole, Function.Embedding.refl_apply]
    show (IntOp.muli w 1024#32).toNat + 1 * (j 0).val = (p 0).val
    rw [hp]
    omega

/-- The first output block: the first array's block plus the fixed table block. -/
theorem piece4 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S512x1024 .f32) (harg5 : arg5.IsWhole) (arg7 : Memref sig .tc .vmem S1x512x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S524288 .f32) (harg10 : arg10.IsWhole)
    (x0 : Vec F S1x512x1024 .f32) (x1 : Vec F S1x512x1024 .f32) (x2 : Vec F S1x512x1024 .f32) (x3 : Vec F S512x1024 .f32) (xt0 : TbBuf0 (F := F) c tbM0_0) (fh0 : HbBuf0 (F := F) c hbM0_0) (k0_hw1 : k0_chk1 (tbM0_0.view.readAt (Elt F) (Rect.unit (s := S64) (k0_off1 i) S1.size (k0_off1_inb i)).toLoadRect xt0 (Shape.Idx.first (numel1_S1.symm ▸ Nat.one_pos)))) :
    out0_A_4 c i arg2 harg2 arg3 harg3 arg4 harg4 arg5 harg5 arg7 harg7 arg8 harg8 arg9 harg9 arg10 harg10 x0 x1 x2 x3 xt0 fh0 k0_hw1 = k0_pay1 x0 x3 := by
  unfold out0_A_4
  rw [View.read_writes_eq_canon _ _ _ (cover0_A_4 c i arg2 harg2 arg3 harg3 arg4 harg4 arg5 harg5 arg7 harg7 arg8 harg8 arg9 harg9 arg10 harg10 x0 x1 x2 x3 xt0 fh0 k0_hw1)]
  unfold kernelRun0_A
  dsimp only
  sl_unfold_words
  rw [View.canon_unit_zero zero3]
  simp only [View.readAt_eq_ld, harg2.read_unread, harg5.read_unread, View.ld_unit_zero (S := S1x512x1024) zero3,
    View.ld_unit_zero (S := S512x1024) zero2]

/-- The second output block: the second array's block plus the copied window. -/
theorem piece5 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S512x1024 .f32) (harg5 : arg5.IsWhole) (arg7 : Memref sig .tc .vmem S1x512x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S524288 .f32) (harg10 : arg10.IsWhole)
    (x0 : Vec F S1x512x1024 .f32) (x1 : Vec F S1x512x1024 .f32) (x2 : Vec F S1x512x1024 .f32) (x3 : Vec F S512x1024 .f32) (xt0 : TbBuf0 (F := F) c tbM0_0) (fh0 : HbBuf0 (F := F) c hbM0_0) (k0_hw1 : k0_chk1 (tbM0_0.view.readAt (Elt F) (Rect.unit (s := S64) (k0_off1 i) S1.size (k0_off1_inb i)).toLoadRect xt0 (Shape.Idx.first (numel1_S1.symm ▸ Nat.one_pos)))) :
    out0_A_5 c i arg2 harg2 arg3 harg3 arg4 harg4 arg5 harg5 arg7 harg7 arg8 harg8 arg9 harg9 arg10 harg10 x0 x1 x2 x3 xt0 fh0 k0_hw1 = k0_pay3 (window c fh0 _ k0_hw1) x1 := by
  unfold out0_A_5
  rw [View.read_writes_eq_canon _ _ _ (cover0_A_5 c i arg2 harg2 arg3 harg3 arg4 harg4 arg5 harg5 arg7 harg7 arg8 harg8 arg9 harg9 arg10 harg10 x0 x1 x2 x3 xt0 fh0 k0_hw1)]
  unfold kernelRun0_A
  dsimp only
  sl_unfold_words
  rw [View.canon_unit_zero zero3]
  simp only [View.readAt_eq_ld, harg3.read_unread, View.ld_unit_zero (S := S1x512x1024) zero3]
  rw [readCov_whole (Val := Elt F) arg10.view zero1]
  rfl

/-- The third output block: the third array's block plus the same copied window. -/
theorem piece6 (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S512x1024 .f32) (harg5 : arg5.IsWhole) (arg7 : Memref sig .tc .vmem S1x512x1024 .f32) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S524288 .f32) (harg10 : arg10.IsWhole)
    (x0 : Vec F S1x512x1024 .f32) (x1 : Vec F S1x512x1024 .f32) (x2 : Vec F S1x512x1024 .f32) (x3 : Vec F S512x1024 .f32) (xt0 : TbBuf0 (F := F) c tbM0_0) (fh0 : HbBuf0 (F := F) c hbM0_0) (k0_hw1 : k0_chk1 (tbM0_0.view.readAt (Elt F) (Rect.unit (s := S64) (k0_off1 i) S1.size (k0_off1_inb i)).toLoadRect xt0 (Shape.Idx.first (numel1_S1.symm ▸ Nat.one_pos)))) :
    out0_A_6 c i arg2 harg2 arg3 harg3 arg4 harg4 arg5 harg5 arg7 harg7 arg8 harg8 arg9 harg9 arg10 harg10 x0 x1 x2 x3 xt0 fh0 k0_hw1 = k0_pay4 (window c fh0 _ k0_hw1) x2 := by
  unfold out0_A_6
  rw [View.read_writes_eq_canon _ _ _ (cover0_A_6 c i arg2 harg2 arg3 harg3 arg4 harg4 arg5 harg5 arg7 harg7 arg8 harg8 arg9 harg9 arg10 harg10 x0 x1 x2 x3 xt0 fh0 k0_hw1)]
  unfold kernelRun0_A
  dsimp only
  sl_unfold_words
  rw [View.canon_unit_zero zero3]
  simp only [View.readAt_eq_ld, harg4.read_unread, View.ld_unit_zero (S := S1x512x1024) zero3]
  rw [readCov_whole (Val := Elt F) arg10.view zero1]
  rfl

end Cert.KernelIdeal.Pieces

end
-- ==== Proof.Payloads.lean ====
/-
  The body's three stored values, entry by entry, on the extended reals.

  Each stored value is a sum of two loaded blocks, with reshapes around it that only rename entries: a [1, 512, 1024]
  block read as [512, 1024] and back, and the flat scratch of 524288 entries read as 512 rows of 1024, entry (r, d)
  being flat entry 1024 r + d.
-/
import proofs.«430714_j63221918597563_4_alg».proof.Proof.Gen.KernelIdeal.Skeleton
import Idealize.ShloMosaic.PureOps.Ideal
import Idealize.ShloMosaic.Lib.ValueIdx
import Idealize.ShloMosaic.Lib.ValueLayout
import Idealize.ShloMosaic.Lib.Pipeline.Value

noncomputable section

namespace Cert.KernelIdeal.Payloads

open Cert.KernelIdeal Cert.KernelIdeal.Gen
open Idealize.ShloMosaic Idealize.ShloMosaic.ValueIdx

/-- Flat entry 1024 r + d of the scratch. -/
def flat (r : Fin 512) (d : Fin 1024) : S524288.Idx :=
  ix1 (⟨r.val * 1024 + d.val, by have := r.isLt; have := d.isLt; omega⟩ : Fin 524288)

/-- The scratch read as 512 rows of 1024. -/
theorem pay2_apply (v14 : Vec Ideal S524288 .f32) (r : Fin 512) (d : Fin 1024) :
    k0_pay2 v14 (ix2 r d) = v14 (flat r d) := by
  unfold k0_pay2
  exact shapeCast_apply v14 _ (ix2 r d) (flat r d) (by
    rw [Shape.rowMajor_val_one, Shape.rowMajor_val_two]
    rfl)

/-- The first stored value: block entry plus fixed-table entry. -/
theorem pay1_apply (x0 : Vec Ideal S1x512x1024 .f32) (x3 : Vec Ideal S512x1024 .f32) (u : Fin 1) (r : Fin 512)
    (d : Fin 1024) : k0_pay1 x0 x3 (ix3 u r d) = x0 (ix3 (0 : Fin 1) r d) + x3 (ix2 r d) := by
  unfold k0_pay1
  rw [shapeCast_ab_1ab_apply, addf_apply, shapeCast_1ab_ab_apply, shapeCast_self]

/-- The second stored value: block entry plus scratch entry. -/
theorem pay3_apply (v14 : Vec Ideal S524288 .f32) (x1 : Vec Ideal S1x512x1024 .f32) (u : Fin 1) (r : Fin 512)
    (d : Fin 1024) : k0_pay3 v14 x1 (ix3 u r d) = x1 (ix3 (0 : Fin 1) r d) + v14 (flat r d) := by
  unfold k0_pay3
  rw [shapeCast_ab_1ab_apply, addf_apply, shapeCast_1ab_ab_apply, pay2_apply]

/-- The third stored value: the same with the third block. -/
theorem pay4_apply (v14 : Vec Ideal S524288 .f32) (x2 : Vec Ideal S1x512x1024 .f32) (u : Fin 1) (r : Fin 512)
    (d : Fin 1024) : k0_pay4 v14 x2 (ix3 u r d) = x2 (ix3 (0 : Fin 1) r d) + v14 (flat r d) := by
  unfold k0_pay4
  rw [shapeCast_ab_1ab_apply, addf_apply, shapeCast_1ab_ab_apply, pay2_apply]

end Cert.KernelIdeal.Payloads

end
-- ==== Proof.Spec.lean ====
/-
  The three results as functions of the argument arrays, entry by entry, on the extended reals.

  The positional table is cut to its first 1024 rows and every entry multiplied by one scale s (the word both
  programs carry for 1/32): enc(r, d) = pe(r, d) * s.  Then, for batch b, position r, feature d,

    first result    lang(b, r, d)    + enc(r, d)
    second result   frames(b, r, d)  + enc(L b + r, d)
    third result    actions(b, r, d) + enc(L b + r, d)

  where L b is the b-th offset word read as a natural number.  The row number L b + r is written capped at 1023 so
  that it names a row of the cut table for every word; for offsets between 0 and 512 the cap never binds, since
  r < 512.
-/
import Idealize.ShloMosaic.PureOps.Ideal
import Idealize.ShloMosaic.Lib.ValueIdx

noncomputable section

namespace Cert.Spec

open Idealize.ShloMosaic Idealize.ShloMosaic.ValueIdx

/-- The scale both programs multiply the table by: the value of the f32 word 0x3D000000. -/
def scale : EReal := Ideal.ofBits .f32 0x3D000000#32

/-- Entry (r, d) of the scaled table, r a row of the first 1024. -/
def enc (pe : (⟨2, ![1250, 1024]⟩ : Shape).Idx → EReal) (r : Fin 1024) (d : Fin 1024) : EReal :=
  pe (ix2 (⟨r.val, by omega⟩ : Fin 1250) d) * scale

/-- The table row that batch b reads at position r: offset plus position, capped at the last row. -/
def rowAt (lens : (⟨1, ![64]⟩ : Shape).Idx → BitVec 32) (b : Fin 64) (r : Fin 512) : Fin 1024 :=
  ⟨min ((lens (ix1 b)).toNat + r.val) 1023, by omega⟩

/-- Below the cap the row is offset plus position. -/
theorem rowAt_val (lens : (⟨1, ![64]⟩ : Shape).Idx → BitVec 32) (b : Fin 64) (r : Fin 512)
    (h : (lens (ix1 b)).toNat ≤ 512) : (rowAt lens b r).val = (lens (ix1 b)).toNat + r.val := by
  show min _ 1023 = _
  have := r.isLt
  omega

/-- The first result: the array plus the table's own first 512 rows, the same for every batch. -/
def fixedSum (x : (⟨3, ![64, 512, 1024]⟩ : Shape).Idx → EReal) (pe : (⟨2, ![1250, 1024]⟩ : Shape).Idx → EReal) :
    (⟨3, ![64, 512, 1024]⟩ : Shape).Idx → EReal :=
  fun i => x i + enc pe ⟨(i 1).val, by have h : (i 1).val < 512 := (i 1).isLt; omega⟩ (i 2)

/-- The second and third results: the array plus the table rows starting at the batch's offset. -/
def shiftedSum (x : (⟨3, ![64, 512, 1024]⟩ : Shape).Idx → EReal) (lens : (⟨1, ![64]⟩ : Shape).Idx → BitVec 32)
    (pe : (⟨2, ![1250, 1024]⟩ : Shape).Idx → EReal) : (⟨3, ![64, 512, 1024]⟩ : Shape).Idx → EReal :=
  fun i => x i + enc pe (rowAt lens (i 0) (i 1)) (i 2)

end Cert.Spec

end
-- ==== Proof.KernelValue.lean ====
/-
  What the kernel's three result arrays hold when it has run.

  The region finds the table cut to 1024 rows and scaled, and the same table flattened to 1048576 entries.  At grid
  point t the body reads offset word w = (offset t), copies flat entries 1024 w .. 1024 w + 524287 of the flattened
  table, that is rows w .. w + 511 of the table, and adds row w + r to row r of block t of the second and of the
  third array; to block t of the first array it adds rows 0 .. 511.  Block t of each result array is written back
  after point t and the 64 blocks tile the array, so each result array ends at the specification's function of the
  argument arrays.
-/
import proofs.«430714_j63221918597563_4_alg».proof.Proof.KernelPieces
import proofs.«430714_j63221918597563_4_alg».proof.Proof.Payloads
import proofs.«430714_j63221918597563_4_alg».proof.Proof.Spec
import proofs.«430714_j63221918597563_4_alg».proof.Proof.Words
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.Tactic Idealize.ShloMosaic.ValueIdx
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg)

/-! ## The table the region finds -/

/-- The scaled table as the region finds it: the first 1024 rows of the argument, every entry times the scale. -/
theorem V_v2 (c : Dev nD) : (V m c main_v2 : S1024x1024.Idx → EReal)
    = mulf (extractStridedSlice S1024x1024 ![0, 0] (m ((c : Thread nD τ).loc main_arg5)) slices_S1250x1024_S1024x1024_0_0)
        (broadcastInDim S1024x1024 ![] bcast_S_S1024x1024 (constant (F := Ideal) S_ .f32 0x3D000000#32)) := by
  dsimp only [V, hostOps0]
  after_results

/-- Its flattening as the region finds it. -/
theorem V_v3 (c : Dev nD) : (V m c main_v3 : S1048576.Idx → EReal)
    = shapeCast S1048576 (V m c main_v2 : S1024x1024.Idx → EReal) shapeCasts_S1024x1024_S1048576 := by
  rw [V_v2]
  dsimp only [V, hostOps0]
  after_results
  rfl

/-- Entry (q, d) of the scaled table. -/
theorem table_apply (c : Dev nD) (q d : Fin 1024) :
    (V m c main_v2 : S1024x1024.Idx → EReal) (ix2 q d) = Cert.Spec.enc (m ((c : Thread nD τ).loc main_arg5)) q d := by
  rw [V_v2, mulf_apply]
  rw [extractStridedSlice_apply ![0, 0] _ slices_S1250x1024_S1024x1024_0_0 (ix2 q d) (ix2 (⟨q.val, by omega⟩ : Fin 1250) d)
    (fun a => match a with
      | ⟨0, _⟩ => by show q.val = 0 + q.val; omega
      | ⟨1, _⟩ => by show d.val = 0 + d.val; omega)]
  rw [broadcastInDim_apply _ bcast_S_S1024x1024 _ (ix2 q d) Idealize.ShloMosaic.ValueIdx.ix0 (fun a => a.elim0)]
  rfl

/-- Flat entry 1024 q + d of the flattened table is entry (q, d) of the table. -/
theorem flat_apply (c : Dev nD) (q d : Fin 1024) (p : S1048576.Idx) (hp : (p 0).val = q.val * 1024 + d.val) :
    (V m c main_v3 : S1048576.Idx → EReal) p = Cert.Spec.enc (m ((c : Thread nD τ).loc main_arg5)) q d := by
  rw [V_v3, ← table_apply]
  exact shapeCast_apply _ _ p (ix2 q d) (by
    rw [Shape.rowMajor_val_one, Shape.rowMajor_val_two, hp]
    rfl)

/-! ## The grid -/

/-- Over the 64 grid points: the word is loaded at entry t of the offset table, every block of a batch-sized array
    sits at batch t with rows and columns from 0, and the fixed table block sits at rows and columns from 0. -/
theorem grid_facts : ∀ t : Fin grid0.N, k0_off1 (grid0.coords t) 0 = t.val
    ∧ cc0_transform_0 (grid0.coords t) = ![t.val, 0, 0] ∧ cc0_transform_1 (grid0.coords t) = ![t.val, 0, 0]
    ∧ cc0_transform_2 (grid0.coords t) = ![t.val, 0, 0] ∧ cc0_transform_3 (grid0.coords t) = ![0, 0]
    ∧ cc0_transform_5 (grid0.coords t) = ![t.val, 0, 0] ∧ cc0_transform_6 (grid0.coords t) = ![t.val, 0, 0]
    ∧ cc0_transform_7 (grid0.coords t) = ![t.val, 0, 0] := by
  decide +kernel

variable (hO : Ok m) (hH : Hyps m hO)

/-- The grid point as a batch number. -/
def batch (t : Fin (cfgM m hO).N) : Fin 64 := ⟨t.val, by have := t.isLt; have e : (cfgM m hO).N = 64 := N_0; omega⟩

/-- The offset word the body loads at grid point t. -/
abbrev wordAt (t : Fin (cfgM m hO).N) : BitVec 32 :=
  tbM0_0.view.readAt (Elt Ideal) (Rect.unit (s := S64) (k0_off1 (grid0.coords t)) S1.size (k0_off1_inb (grid0.coords t))).toLoadRect
    (tbl m 0) (Shape.Idx.first (numel1_S1.symm ▸ Nat.one_pos))

/-- It is entry t of the offset argument. -/
theorem wordAt_eq (c : Dev nD) (t : Fin (cfgM m hO).N) :
    wordAt m hO t = m ((c : Thread nD τ).loc main_arg3) (ix1 (batch m hO t)) := by
  obtain rfl : c = 0 := Subsingleton.elim _ _
  show tbl m 0 _ = _
  rw [show tbl m 0 = m (((0 : Dev nD) : Thread nD τ).loc main_arg3) from V_main_arg3 m 0]
  congr 1
  funext a
  apply Fin.ext
  match a with
  | ⟨0, _⟩ =>
    have h1 : 0 < S1.numel := numel1_S1.symm ▸ Nat.one_pos
    show k0_off1 (grid0.coords t) 0 + 1 * (Shape.Idx.first h1 (0 : Fin 1)).val = t.val
    have h0 : (Shape.Idx.first h1 (0 : Fin 1)).val = 0 := by
      have := (Shape.Idx.first h1 (0 : Fin 1)).isLt
      have e : S1.size (0 : Fin 1) = 1 := by decide
      omega
    rw [h0, (grid_facts t).1]
    omega

/-! ## The input blocks, entry by entry -/

/-- Entry (0, r, d) of the first array's block at point t is the array's entry (t, r, d). -/
theorem blk0_apply (c : Dev nD) (t : Fin (cfgM m hO).N) (r : Fin 512) (d : Fin 1024) :
    (iblk m hO c 0 t : Vec Ideal S1x512x1024 .f32) (ix3 (0 : Fin 1) r d)
      = m ((c : Thread nD τ).loc main_arg0) (ix3 (batch m hO t) r d) := by
  unfold iblk
  show V m c main_arg0 ((((cfgM m hO).win 0).blk t).view.emb (ix3 (0 : Fin 1) r d)) = _
  rw [V_main_arg0]
  congr 1
  funext a
  apply Fin.ext
  have g := (grid_facts t).2.1
  match a with
  | ⟨0, _⟩ =>
    show cc0_transform_0 (grid0.coords t) 0 * 1 + 1 * (0 : Fin 1).val = t.val
    rw [g]
    show t.val * 1 + 1 * (0 : Fin 1).val = t.val
    omega
  | ⟨1, _⟩ =>
    show cc0_transform_0 (grid0.coords t) 1 * 512 + 1 * r.val = r.val
    rw [g]
    show 0 * 512 + 1 * r.val = r.val
    omega
  | ⟨2, _⟩ =>
    show cc0_transform_0 (grid0.coords t) 2 * 1024 + 1 * d.val = d.val
    rw [g]
    show 0 * 1024 + 1 * d.val = d.val
    omega

/-- Entry (0, r, d) of the second array's block at point t is the array's entry (t, r, d). -/
theorem blk1_apply (c : Dev nD) (t : Fin (cfgM m hO).N) (r : Fin 512) (d : Fin 1024) :
    (iblk m hO c 1 t : Vec Ideal S1x512x1024 .f32) (ix3 (0 : Fin 1) r d)
      = m ((c : Thread nD τ).loc main_arg1) (ix3 (batch m hO t) r d) := by
  unfold iblk
  show V m c main_arg1 ((((cfgM m hO).win 1).blk t).view.emb (ix3 (0 : Fin 1) r d)) = _
  rw [V_main_arg1]
  congr 1
  funext a
  apply Fin.ext
  have g := (grid_facts t).2.2.1
  match a with
  | ⟨0, _⟩ =>
    show cc0_transform_1 (grid0.coords t) 0 * 1 + 1 * (0 : Fin 1).val = t.val
    rw [g]
    show t.val * 1 + 1 * (0 : Fin 1).val = t.val
    omega
  | ⟨1, _⟩ =>
    show cc0_transform_1 (grid0.coords t) 1 * 512 + 1 * r.val = r.val
    rw [g]
    show 0 * 512 + 1 * r.val = r.val
    omega
  | ⟨2, _⟩ =>
    show cc0_transform_1 (grid0.coords t) 2 * 1024 + 1 * d.val = d.val
    rw [g]
    show 0 * 1024 + 1 * d.val = d.val
    omega

/-- Entry (0, r, d) of the third array's block at point t is the array's entry (t, r, d). -/
theorem blk2_apply (c : Dev nD) (t : Fin (cfgM m hO).N) (r : Fin 512) (d : Fin 1024) :
    (iblk m hO c 2 t : Vec Ideal S1x512x1024 .f32) (ix3 (0 : Fin 1) r d)
      = m ((c : Thread nD τ).loc main_arg2) (ix3 (batch m hO t) r d) := by
  unfold iblk
  show V m c main_arg2 ((((cfgM m hO).win 2).blk t).view.emb (ix3 (0 : Fin 1) r d)) = _
  rw [V_main_arg2]
  congr 1
  funext a
  apply Fin.ext
  have g := (grid_facts t).2.2.2.1
  match a with
  | ⟨0, _⟩ =>
    show cc0_transform_2 (grid0.coords t) 0 * 1 + 1 * (0 : Fin 1).val = t.val
    rw [g]
    show t.val * 1 + 1 * (0 : Fin 1).val = t.val
    omega
  | ⟨1, _⟩ =>
    show cc0_transform_2 (grid0.coords t) 1 * 512 + 1 * r.val = r.val
    rw [g]
    show 0 * 512 + 1 * r.val = r.val
    omega
  | ⟨2, _⟩ =>
    show cc0_transform_2 (grid0.coords t) 2 * 1024 + 1 * d.val = d.val
    rw [g]
    show 0 * 1024 + 1 * d.val = d.val
    omega

/-- Entry (r, d) of the fixed table block is the scaled table's entry (r, d), at every point. -/
theorem blk3_apply (c : Dev nD) (t : Fin (cfgM m hO).N) (r : Fin 512) (d : Fin 1024) :
    (iblk m hO c 3 t : Vec Ideal S512x1024 .f32) (ix2 r d)
      = Cert.Spec.enc (m ((c : Thread nD τ).loc main_arg5)) ⟨r.val, by omega⟩ d := by
  rw [← table_apply]
  unfold iblk
  show V m c main_v2 ((((cfgM m hO).win 3).blk t).view.emb (ix2 r d)) = _
  congr 1
  funext a
  apply Fin.ext
  have g := (grid_facts t).2.2.2.2.1
  match a with
  | ⟨0, _⟩ =>
    show cc0_transform_3 (grid0.coords t) 0 * 512 + 1 * r.val = r.val
    rw [g]
    show 0 * 512 + 1 * r.val = r.val
    omega
  | ⟨1, _⟩ =>
    show cc0_transform_3 (grid0.coords t) 1 * 1024 + 1 * d.val = d.val
    rw [g]
    show 0 * 1024 + 1 * d.val = d.val
    omega

/-! ## The result blocks read through their place in the arrays -/

/-- Block t of the first result array, read at (u, r, d), is the array's entry (t, r, d). -/
theorem out4_read (c : Dev nD) (t : Fin (cfgM m hO).N) (Z : S64x512x1024.Idx → EReal) (u : Fin 1) (r : Fin 512) (d : Fin 1024) :
    (((cfgM m hO).win 4).blk t).view.read (Elt Ideal) Z (ix3 u r d) = Z (ix3 (batch m hO t) r d) := by
  show Z ((((cfgM m hO).win 4).blk t).view.emb (ix3 u r d)) = _
  have hu : u.val = 0 := by omega
  congr 1
  funext a
  apply Fin.ext
  have g := (grid_facts t).2.2.2.2.2.1
  match a with
  | ⟨0, _⟩ =>
    show cc0_transform_5 (grid0.coords t) 0 * 1 + 1 * u.val = t.val
    rw [g]
    show t.val * 1 + 1 * u.val = t.val
    omega
  | ⟨1, _⟩ =>
    show cc0_transform_5 (grid0.coords t) 1 * 512 + 1 * r.val = r.val
    rw [g]
    show 0 * 512 + 1 * r.val = r.val
    omega
  | ⟨2, _⟩ =>
    show cc0_transform_5 (grid0.coords t) 2 * 1024 + 1 * d.val = d.val
    rw [g]
    show 0 * 1024 + 1 * d.val = d.val
    omega

/-- Block t of the second result array, read at (u, r, d), is the array's entry (t, r, d). -/
theorem out5_read (c : Dev nD) (t : Fin (cfgM m hO).N) (Z : S64x512x1024.Idx → EReal) (u : Fin 1) (r : Fin 512) (d : Fin 1024) :
    (((cfgM m hO).win 5).blk t).view.read (Elt Ideal) Z (ix3 u r d) = Z (ix3 (batch m hO t) r d) := by
  show Z ((((cfgM m hO).win 5).blk t).view.emb (ix3 u r d)) = _
  have hu : u.val = 0 := by omega
  congr 1
  funext a
  apply Fin.ext
  have g := (grid_facts t).2.2.2.2.2.2.1
  match a with
  | ⟨0, _⟩ =>
    show cc0_transform_6 (grid0.coords t) 0 * 1 + 1 * u.val = t.val
    rw [g]
    show t.val * 1 + 1 * u.val = t.val
    omega
  | ⟨1, _⟩ =>
    show cc0_transform_6 (grid0.coords t) 1 * 512 + 1 * r.val = r.val
    rw [g]
    show 0 * 512 + 1 * r.val = r.val
    omega
  | ⟨2, _⟩ =>
    show cc0_transform_6 (grid0.coords t) 2 * 1024 + 1 * d.val = d.val
    rw [g]
    show 0 * 1024 + 1 * d.val = d.val
    omega

/-- Block t of the third result array, read at (u, r, d), is the array's entry (t, r, d). -/
theorem out6_read (c : Dev nD) (t : Fin (cfgM m hO).N) (Z : S64x512x1024.Idx → EReal) (u : Fin 1) (r : Fin 512) (d : Fin 1024) :
    (((cfgM m hO).win 6).blk t).view.read (Elt Ideal) Z (ix3 u r d) = Z (ix3 (batch m hO t) r d) := by
  show Z ((((cfgM m hO).win 6).blk t).view.emb (ix3 u r d)) = _
  have hu : u.val = 0 := by omega
  congr 1
  funext a
  apply Fin.ext
  have g := (grid_facts t).2.2.2.2.2.2.2
  match a with
  | ⟨0, _⟩ =>
    show cc0_transform_7 (grid0.coords t) 0 * 1 + 1 * u.val = t.val
    rw [g]
    show t.val * 1 + 1 * u.val = t.val
    omega
  | ⟨1, _⟩ =>
    show cc0_transform_7 (grid0.coords t) 1 * 512 + 1 * r.val = r.val
    rw [g]
    show 0 * 512 + 1 * r.val = r.val
    omega
  | ⟨2, _⟩ =>
    show cc0_transform_7 (grid0.coords t) 2 * 1024 + 1 * d.val = d.val
    rw [g]
    show 0 * 1024 + 1 * d.val = d.val
    omega

/-! ## What a point writes back -/

variable (c : Dev nD)

/-- Entry (u, r, d) of what point t leaves in the first output block: the first array's entry (t, r, d) plus the
    table's entry (r, d). -/
theorem stored4 (t : Fin (cfgM m hO).N) (u : Fin 1) (r : Fin 512) (d : Fin 1024) :
    (outsAt0 m hO hH c t).1 (ix3 u r d) = Cert.Spec.fixedSum (m ((c : Thread nD τ).loc main_arg0)) (m ((c : Thread nD τ).loc main_arg5)) (ix3 (batch m hO t) r d) := by
  unfold outsAt0
  dsimp only
  refine (congrFun (Cert.KernelIdeal.Pieces.piece4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (iblk m hO c 0 t) (iblk m hO c 1 t) (iblk m hO c 2 t) (iblk m hO c 3 t) (tbl m 0) (V m c main_v3) (Hyps.c0 hH c t)) (ix3 u r d)).trans ?_
  refine (Cert.KernelIdeal.Payloads.pay1_apply (iblk m hO c 0 t) (iblk m hO c 3 t) u r d).trans ?_
  exact congrArg₂ (· + ·) (blk0_apply m hO c t r d) (blk3_apply m hO c t r d)

/-- Entry (u, r, d) of what point t leaves in the second output block: the second array's entry (t, r, d) plus the table's
    entry (offset t + r, d). -/
theorem stored5 (hL : ∀ b : Fin 64, ((m ((c : Thread nD τ).loc main_arg3)) (ix1 b)).toNat ≤ 512)
    (t : Fin (cfgM m hO).N) (u : Fin 1) (r : Fin 512) (d : Fin 1024) :
    (outsAt0 m hO hH c t).2.1 (ix3 u r d)
      = Cert.Spec.shiftedSum (m ((c : Thread nD τ).loc main_arg1)) (m ((c : Thread nD τ).loc main_arg3)) (m ((c : Thread nD τ).loc main_arg5)) (ix3 (batch m hO t) r d) := by
  unfold outsAt0
  dsimp only
  refine (congrFun (Cert.KernelIdeal.Pieces.piece5 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (iblk m hO c 0 t) (iblk m hO c 1 t) (iblk m hO c 2 t) (iblk m hO c 3 t) (tbl m 0) (V m c main_v3) (Hyps.c0 hH c t)) (ix3 u r d)).trans ?_
  refine (Cert.KernelIdeal.Payloads.pay3_apply (Cert.KernelIdeal.Pieces.window c (V m c main_v3) _ (Hyps.c0 hH c t)) (iblk m hO c 1 t) u r d).trans ?_
  have hw : (wordAt m hO t).toNat ≤ 512 := by rw [wordAt_eq m hO c t]; exact hL _
  have hm := Cert.Words.mul_toNat (wordAt m hO t) hw
  have hrow : (Cert.Spec.rowAt (m ((c : Thread nD τ).loc main_arg3)) (batch m hO t) r).val = (wordAt m hO t).toNat + r.val := by
    rw [Cert.Spec.rowAt_val _ _ _ (hL _), ← wordAt_eq m hO c t]
  refine congrArg₂ (· + ·) (blk1_apply m hO c t r d) ?_
  have hr := r.isLt
  have hd := d.isLt
  let p : S1048576.Idx := ix1 (⟨(wordAt m hO t).toNat * 1024 + (r.val * 1024 + d.val), by omega⟩ : Fin 1048576)
  refine (Cert.KernelIdeal.Pieces.window_apply c (V m c main_v3) _ (Hyps.c0 hH c t) (Cert.KernelIdeal.Payloads.flat r d) p ?_).trans ?_
  · show (wordAt m hO t).toNat * 1024 + (r.val * 1024 + d.val) = (IntOp.muli (wordAt m hO t) 1024#32).toNat + (r.val * 1024 + d.val)
    rw [hm]
  · exact flat_apply m c (Cert.Spec.rowAt (m ((c : Thread nD τ).loc main_arg3)) (batch m hO t) r) d p (by
      show (wordAt m hO t).toNat * 1024 + (r.val * 1024 + d.val) = (Cert.Spec.rowAt (m ((c : Thread nD τ).loc main_arg3)) (batch m hO t) r).val * 1024 + d.val
      rw [hrow]
      omega)

/-- Entry (u, r, d) of what point t leaves in the third output block: the third array's entry (t, r, d) plus the table's
    entry (offset t + r, d). -/
theorem stored6 (hL : ∀ b : Fin 64, ((m ((c : Thread nD τ).loc main_arg3)) (ix1 b)).toNat ≤ 512)
    (t : Fin (cfgM m hO).N) (u : Fin 1) (r : Fin 512) (d : Fin 1024) :
    (outsAt0 m hO hH c t).2.2 (ix3 u r d)
      = Cert.Spec.shiftedSum (m ((c : Thread nD τ).loc main_arg2)) (m ((c : Thread nD τ).loc main_arg3)) (m ((c : Thread nD τ).loc main_arg5)) (ix3 (batch m hO t) r d) := by
  unfold outsAt0
  dsimp only
  refine (congrFun (Cert.KernelIdeal.Pieces.piece6 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (iblk m hO c 0 t) (iblk m hO c 1 t) (iblk m hO c 2 t) (iblk m hO c 3 t) (tbl m 0) (V m c main_v3) (Hyps.c0 hH c t)) (ix3 u r d)).trans ?_
  refine (Cert.KernelIdeal.Payloads.pay4_apply (Cert.KernelIdeal.Pieces.window c (V m c main_v3) _ (Hyps.c0 hH c t)) (iblk m hO c 2 t) u r d).trans ?_
  have hw : (wordAt m hO t).toNat ≤ 512 := by rw [wordAt_eq m hO c t]; exact hL _
  have hm := Cert.Words.mul_toNat (wordAt m hO t) hw
  have hrow : (Cert.Spec.rowAt (m ((c : Thread nD τ).loc main_arg3)) (batch m hO t) r).val = (wordAt m hO t).toNat + r.val := by
    rw [Cert.Spec.rowAt_val _ _ _ (hL _), ← wordAt_eq m hO c t]
  refine congrArg₂ (· + ·) (blk2_apply m hO c t r d) ?_
  have hr := r.isLt
  have hd := d.isLt
  let p : S1048576.Idx := ix1 (⟨(wordAt m hO t).toNat * 1024 + (r.val * 1024 + d.val), by omega⟩ : Fin 1048576)
  refine (Cert.KernelIdeal.Pieces.window_apply c (V m c main_v3) _ (Hyps.c0 hH c t) (Cert.KernelIdeal.Payloads.flat r d) p ?_).trans ?_
  · show (wordAt m hO t).toNat * 1024 + (r.val * 1024 + d.val) = (IntOp.muli (wordAt m hO t) 1024#32).toNat + (r.val * 1024 + d.val)
    rw [hm]
  · exact flat_apply m c (Cert.Spec.rowAt (m ((c : Thread nD τ).loc main_arg3)) (batch m hO t) r) d p (by
      show (wordAt m hO t).toNat * 1024 + (r.val * 1024 + d.val) = (Cert.Spec.rowAt (m ((c : Thread nD τ).loc main_arg3)) (batch m hO t) r).val * 1024 + d.val
      rw [hrow]
      omega)

/-- What point t writes back to result 0 is block t of the specification's array. -/
theorem flushed4_eq (t : Fin (cfgM m hO).N) :
    (dats m hO hH 0 c).flushed 4 t = (((cfgM m hO).win 4).blk t).view.read (Elt Ideal) (Cert.Spec.fixedSum (m ((c : Thread nD τ).loc main_arg0)) (m ((c : Thread nD τ).loc main_arg5))) := by
  show ((cfgM m hO).win 4).cut (grid0.coords t) ((dats m hO hH 0 c).after 4 t) = _
  rw [after0_4]
  refine funext fun (j : S1x512x1024.Idx) => ?_
  obtain ⟨u, r, d, rfl⟩ : ∃ (u : Fin 1) (r : Fin 512) (d : Fin 1024), j = ix3 u r d := ⟨j 0, j 1, j 2, eq_ix3 j⟩
  exact (stored4 m hO hH c t u r d).trans (out4_read m hO c t _ u r d).symm

/-- What point t writes back to result 1 is block t of the specification's array. -/
theorem flushed5_eq (hL : ∀ b : Fin 64, ((m ((c : Thread nD τ).loc main_arg3)) (ix1 b)).toNat ≤ 512) (t : Fin (cfgM m hO).N) :
    (dats m hO hH 0 c).flushed 5 t = (((cfgM m hO).win 5).blk t).view.read (Elt Ideal) (Cert.Spec.shiftedSum (m ((c : Thread nD τ).loc main_arg1)) (m ((c : Thread nD τ).loc main_arg3)) (m ((c : Thread nD τ).loc main_arg5))) := by
  show ((cfgM m hO).win 5).cut (grid0.coords t) ((dats m hO hH 0 c).after 5 t) = _
  rw [after0_5]
  refine funext fun (j : S1x512x1024.Idx) => ?_
  obtain ⟨u, r, d, rfl⟩ : ∃ (u : Fin 1) (r : Fin 512) (d : Fin 1024), j = ix3 u r d := ⟨j 0, j 1, j 2, eq_ix3 j⟩
  exact (stored5 m hO hH c hL t u r d).trans (out5_read m hO c t _ u r d).symm

/-- What point t writes back to result 2 is block t of the specification's array. -/
theorem flushed6_eq (hL : ∀ b : Fin 64, ((m ((c : Thread nD τ).loc main_arg3)) (ix1 b)).toNat ≤ 512) (t : Fin (cfgM m hO).N) :
    (dats m hO hH 0 c).flushed 6 t = (((cfgM m hO).win 6).blk t).view.read (Elt Ideal) (Cert.Spec.shiftedSum (m ((c : Thread nD τ).loc main_arg2)) (m ((c : Thread nD τ).loc main_arg3)) (m ((c : Thread nD τ).loc main_arg5))) := by
  show ((cfgM m hO).win 6).cut (grid0.coords t) ((dats m hO hH 0 c).after 6 t) = _
  rw [after0_6]
  refine funext fun (j : S1x512x1024.Idx) => ?_
  obtain ⟨u, r, d, rfl⟩ : ∃ (u : Fin 1) (r : Fin 512) (d : Fin 1024), j = ix3 u r d := ⟨j 0, j 1, j 2, eq_ix3 j⟩
  exact (stored6 m hO hH c hL t u r d).trans (out6_read m hO c t _ u r d).symm

/-! ## The blocks tile the arrays -/

/-- Every entry of result 0 lies in the block of its batch number. -/
theorem cover4 (i : S64x512x1024.Idx) :
    ∃ t : Fin (cfgM m hO).N, ((cfgM m hO).win 4).flush t = true ∧ i ∈ (((cfgM m hO).win 4).blk t).view.set := by
  have h0 : (i 0).val < 64 := (i 0).isLt
  have h1 : (i 1).val < 512 := (i 1).isLt
  have h2 : (i 2).val < 1024 := (i 2).isLt
  have hN : (cfgM m hO).N = 64 := N_0
  let t : Fin (cfgM m hO).N := ⟨(i 0).val, by omega⟩
  refine ⟨t, flush0_4 (adm m hO) t, ?_⟩
  have g := (grid_facts t).2.2.2.2.2.1
  refine (Finset.ext_iff.mp (View.set_slice_whole main_v4_0 (((cfgM m hO).win 4).rect t)) i).mpr (Rect.mem_set_unit.mpr fun a => ?_)
  match a with
  | ⟨0, _⟩ =>
    show cc0_transform_5 (grid0.coords t) 0 * 1 ≤ (i 0).val ∧ (i 0).val < cc0_transform_5 (grid0.coords t) 0 * 1 + 1
    rw [g]
    show (i 0).val * 1 ≤ (i 0).val ∧ (i 0).val < (i 0).val * 1 + 1
    omega
  | ⟨1, _⟩ =>
    show cc0_transform_5 (grid0.coords t) 1 * 512 ≤ (i 1).val ∧ (i 1).val < cc0_transform_5 (grid0.coords t) 1 * 512 + 512
    rw [g]
    show 0 * 512 ≤ (i 1).val ∧ (i 1).val < 0 * 512 + 512
    omega
  | ⟨2, _⟩ =>
    show cc0_transform_5 (grid0.coords t) 2 * 1024 ≤ (i 2).val ∧ (i 2).val < cc0_transform_5 (grid0.coords t) 2 * 1024 + 1024
    rw [g]
    show 0 * 1024 ≤ (i 2).val ∧ (i 2).val < 0 * 1024 + 1024
    omega

/-- Every entry of result 1 lies in the block of its batch number. -/
theorem cover5 (i : S64x512x1024.Idx) :
    ∃ t : Fin (cfgM m hO).N, ((cfgM m hO).win 5).flush t = true ∧ i ∈ (((cfgM m hO).win 5).blk t).view.set := by
  have h0 : (i 0).val < 64 := (i 0).isLt
  have h1 : (i 1).val < 512 := (i 1).isLt
  have h2 : (i 2).val < 1024 := (i 2).isLt
  have hN : (cfgM m hO).N = 64 := N_0
  let t : Fin (cfgM m hO).N := ⟨(i 0).val, by omega⟩
  refine ⟨t, flush0_5 (adm m hO) t, ?_⟩
  have g := (grid_facts t).2.2.2.2.2.2.1
  refine (Finset.ext_iff.mp (View.set_slice_whole main_v4_1 (((cfgM m hO).win 5).rect t)) i).mpr (Rect.mem_set_unit.mpr fun a => ?_)
  match a with
  | ⟨0, _⟩ =>
    show cc0_transform_6 (grid0.coords t) 0 * 1 ≤ (i 0).val ∧ (i 0).val < cc0_transform_6 (grid0.coords t) 0 * 1 + 1
    rw [g]
    show (i 0).val * 1 ≤ (i 0).val ∧ (i 0).val < (i 0).val * 1 + 1
    omega
  | ⟨1, _⟩ =>
    show cc0_transform_6 (grid0.coords t) 1 * 512 ≤ (i 1).val ∧ (i 1).val < cc0_transform_6 (grid0.coords t) 1 * 512 + 512
    rw [g]
    show 0 * 512 ≤ (i 1).val ∧ (i 1).val < 0 * 512 + 512
    omega
  | ⟨2, _⟩ =>
    show cc0_transform_6 (grid0.coords t) 2 * 1024 ≤ (i 2).val ∧ (i 2).val < cc0_transform_6 (grid0.coords t) 2 * 1024 + 1024
    rw [g]
    show 0 * 1024 ≤ (i 2).val ∧ (i 2).val < 0 * 1024 + 1024
    omega

/-- Every entry of result 2 lies in the block of its batch number. -/
theorem cover6 (i : S64x512x1024.Idx) :
    ∃ t : Fin (cfgM m hO).N, ((cfgM m hO).win 6).flush t = true ∧ i ∈ (((cfgM m hO).win 6).blk t).view.set := by
  have h0 : (i 0).val < 64 := (i 0).isLt
  have h1 : (i 1).val < 512 := (i 1).isLt
  have h2 : (i 2).val < 1024 := (i 2).isLt
  have hN : (cfgM m hO).N = 64 := N_0
  let t : Fin (cfgM m hO).N := ⟨(i 0).val, by omega⟩
  refine ⟨t, flush0_6 (adm m hO) t, ?_⟩
  have g := (grid_facts t).2.2.2.2.2.2.2
  refine (Finset.ext_iff.mp (View.set_slice_whole main_v4_2 (((cfgM m hO).win 6).rect t)) i).mpr (Rect.mem_set_unit.mpr fun a => ?_)
  match a with
  | ⟨0, _⟩ =>
    show cc0_transform_7 (grid0.coords t) 0 * 1 ≤ (i 0).val ∧ (i 0).val < cc0_transform_7 (grid0.coords t) 0 * 1 + 1
    rw [g]
    show (i 0).val * 1 ≤ (i 0).val ∧ (i 0).val < (i 0).val * 1 + 1
    omega
  | ⟨1, _⟩ =>
    show cc0_transform_7 (grid0.coords t) 1 * 512 ≤ (i 1).val ∧ (i 1).val < cc0_transform_7 (grid0.coords t) 1 * 512 + 512
    rw [g]
    show 0 * 512 ≤ (i 1).val ∧ (i 1).val < 0 * 512 + 512
    omega
  | ⟨2, _⟩ =>
    show cc0_transform_7 (grid0.coords t) 2 * 1024 ≤ (i 2).val ∧ (i 2).val < cc0_transform_7 (grid0.coords t) 2 * 1024 + 1024
    rw [g]
    show 0 * 1024 ≤ (i 2).val ∧ (i 2).val < 0 * 1024 + 1024
    omega

/-! ## The result arrays, and the run -/

/-- The first result array ends at the first array plus the table's rows 0 .. 511. -/
theorem final4 : (dats m hO hH 0 c).arrAt 4 (cfgM m hO).N = Cert.Spec.fixedSum (m ((c : Thread nD τ).loc main_arg0)) (m ((c : Thread nD τ).loc main_arg5)) :=
  (dats m hO hH 0 c).arrAt_eq_of_cover 4 (Cert.Spec.fixedSum (m ((c : Thread nD τ).loc main_arg0)) (m ((c : Thread nD τ).loc main_arg5))) (fun t _ => flushed4_eq m hO hH c t) (cover4 m hO)

/-- The second result array ends at the second array plus, per batch, the table's rows from the batch's offset. -/
theorem final5 (hL : ∀ b : Fin 64, ((m ((c : Thread nD τ).loc main_arg3)) (ix1 b)).toNat ≤ 512) :
    (dats m hO hH 0 c).arrAt 5 (cfgM m hO).N = Cert.Spec.shiftedSum (m ((c : Thread nD τ).loc main_arg1)) (m ((c : Thread nD τ).loc main_arg3)) (m ((c : Thread nD τ).loc main_arg5)) :=
  (dats m hO hH 0 c).arrAt_eq_of_cover 5 (Cert.Spec.shiftedSum (m ((c : Thread nD τ).loc main_arg1)) (m ((c : Thread nD τ).loc main_arg3)) (m ((c : Thread nD τ).loc main_arg5))) (fun t _ => flushed5_eq m hO hH c hL t) (cover5 m hO)

/-- The third result array likewise, over the third array. -/
theorem final6 (hL : ∀ b : Fin 64, ((m ((c : Thread nD τ).loc main_arg3)) (ix1 b)).toNat ≤ 512) :
    (dats m hO hH 0 c).arrAt 6 (cfgM m hO).N = Cert.Spec.shiftedSum (m ((c : Thread nD τ).loc main_arg2)) (m ((c : Thread nD τ).loc main_arg3)) (m ((c : Thread nD τ).loc main_arg5)) :=
  (dats m hO hH 0 c).arrAt_eq_of_cover 6 (Cert.Spec.shiftedSum (m ((c : Thread nD τ).loc main_arg2)) (m ((c : Thread nD τ).loc main_arg3)) (m ((c : Thread nD τ).loc main_arg5))) (fun t _ => flushed6_eq m hO hH c hL t) (cover6 m hO)

include hO hH in
/-- The run, read: every weakly fair execution ends with the three result arrays at the specification's functions of
    the argument arrays, and the argument arrays as they were. -/
theorem run (hL : ∀ (c : Dev nD) (b : Fin 64), ((m ((c : Thread nD τ).loc main_arg3)) (ix1 b)).toNat ≤ 512) :
    θ_run defs (onTc (τ := τ) (main (F := Ideal))) ⟨m, fun _ => 0, ρ⟩ fun r => ∀ c : Dev nD,
      r.2.mem ((c : Thread nD τ).loc main_v4_0) = Cert.Spec.fixedSum (m ((c : Thread nD τ).loc main_arg0)) (m ((c : Thread nD τ).loc main_arg5))
      ∧ r.2.mem ((c : Thread nD τ).loc main_v4_1) = Cert.Spec.shiftedSum (m ((c : Thread nD τ).loc main_arg1)) (m ((c : Thread nD τ).loc main_arg3)) (m ((c : Thread nD τ).loc main_arg5))
      ∧ r.2.mem ((c : Thread nD τ).loc main_v4_2) = Cert.Spec.shiftedSum (m ((c : Thread nD τ).loc main_arg2)) (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 4).trans (final4 m hO hH c),
      ((h c).1 5).trans (final5 m hO hH c (hL c)),
      ((h c).1 6).trans (final6 m hO hH c (hL c)),
      ((h c).1 0).trans (((dats m hO hH 0 c).arrAt_in 0 rfl _).trans ((A_eq m hO hH c 0).trans (V_main_arg0 m c))),
      ((h c).1 1).trans (((dats m hO hH 0 c).arrAt_in 1 rfl _).trans ((A_eq m hO hH c 1).trans (V_main_arg1 m c))),
      ((h c).1 2).trans (((dats m hO hH 0 c).arrAt_in 2 rfl _).trans ((A_eq m hO hH c 2).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hO hH)

end Cert.KernelIdeal.Value

end
-- ==== Proof.LibGather3.lean ====
/-
  A gather of whole rows read at an index, for a rank-3 array of row numbers.

  x[idx] over the rows of an [N, K] table, with the row numbers kept as an [A, M, 1] array (the last axis is the
  one-component index vector): result entry (a, e, k) is the table's entry k of the row whose number is start index
  (a, e), read as a signed integer and clamped into the table, that is into [0, N - 1].
-/
import Idealize.ShloMosaic.PureOps.Ideal
import Idealize.ShloMosaic.Lib.ValueIdx

noncomputable section

namespace Cert.LibGather3

open Idealize.ShloMosaic Idealize.ShloMosaic.ValueIdx

/-- Entry i of a list known to be l' is entry i of l'. -/
theorem getElem_of_eq {α : Type} {l l' : List α} (h : l = l') (i i' : Nat) (hi : i < l.length) (hii : i = i')
    (hi' : i' < l'.length) : l[i] = l'[i'] := by
  subst h; subst hii; rfl

section Rows3
variable {N A M K w : Nat} (d : GatherDims ⟨2, ![N, K]⟩ ⟨3, ![A, M, 1]⟩ ⟨3, ![A, M, K]⟩)

/-- Result entry (a, e, k) reads its one start-index component at entry (a, e, 0) of the array of row numbers:
    the two batch coordinates are carried over and the index-vector axis holds the component's number, 0. -/
theorem rows3_siIdx (hoff : d.offsetDims = [2]) (hivd : d.indexVectorDim = 2)
    (a : Fin A) (e : Fin M) (k : Fin K) (c : Fin d.startIndexMap.length) (hc : c.val = 0) :
    d.siIdx (ix3 a e k) c = ix3 a e (0 : Fin 1) := by
  have hbd : d.batchDims = [0, 1] := by
    show Shape.kept _ d.offsetDims = _
    rw [hoff]; rfl
  have hsik : d.siKept = [0, 1] := by
    show (List.finRange 3).filter (fun b => decide (b.val ≠ d.indexVectorDim)) = _
    rw [hivd]; rfl
  funext b
  match b with
  | ⟨0, _⟩ =>
    unfold GatherDims.siIdx
    rw [dif_neg (by rw [hivd]; simp)]
    unfold GatherDims.siCoord
    apply Fin.ext
    simp only [Fin.val_cast]
    rw [getElem_of_eq hbd _ 0 _ (by rw [hsik]; rfl) (by simp)]
    rfl
  | ⟨1, _⟩ =>
    unfold GatherDims.siIdx
    rw [dif_neg (by rw [hivd]; simp)]
    unfold GatherDims.siCoord
    apply Fin.ext
    simp only [Fin.val_cast]
    rw [getElem_of_eq hbd _ 1 _ (by rw [hsik]; rfl) (by simp)]
    rfl
  | ⟨2, _⟩ =>
    unfold GatherDims.siIdx
    rw [dif_pos (by rw [hivd])]
    apply Fin.ext
    exact hc

end Rows3

/-- A gather of whole rows of an [N, K] operand at an [A, M, 1] array of row numbers (offset axis 2, collapsed
    axis 0, the one start-index component naming operand axis 0, slices 1 × K), read at entry (a, e, k): the
    operand's entry k of the row at the start index read signed and clamped into [0, N - 1]. -/
theorem gather_rows3_apply {α : Type} {N A M K w : Nat}
    (d : GatherDims ⟨2, ![N, K]⟩ ⟨3, ![A, M, 1]⟩ ⟨3, ![A, M, K]⟩)
    (hoff : d.offsetDims = [2]) (hcoll : d.collapsedSliceDims = [0]) (hob : d.operandBatchingDims = [])
    (hsim : d.startIndexMap = [0]) (hivd : d.indexVectorDim = 2) (hss : d.sliceSizes = ![1, K])
    (x : (⟨2, ![N, K]⟩ : Shape).Idx → α) (idx : IVec ⟨3, ![A, M, 1]⟩ w) (a : Fin A) (e : Fin M) (k : Fin K)
    (hN : 0 < N) :
    Host.gather d x idx (ix3 a e k)
      = x (ix2 ⟨min (idx (ix3 a e (0 : Fin 1))).toInt.toNat (N - 1), by omega⟩ k) := by
  unfold Host.gather
  congr 1
  funext c
  apply Fin.ext
  have hsk : d.sKept = [1] := by
    show Shape.kept _ (d.collapsedSliceDims ++ d.operandBatchingDims) = _
    rw [hcoll, hob]; rfl
  match c with
  | ⟨0, _⟩ =>
    -- axis 0 is collapsed and carries the start index: clamped start, no batching or offset coordinate
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    show d.start (ix3 a e k) idx 0 + d.batchCoord (ix3 a e k) 0 + d.offCoord (ix3 a e k) 0 = _
    rw [GatherDims.batchCoord_eq_zero _ _ _ hb, GatherDims.offCoord_eq_zero _ _ _ hk]
    simp only [Nat.add_zero]
    unfold GatherDims.start
    rw [dif_pos hm, hsl, rows3_siIdx d hoff hivd a e k _ (by show List.idxOf (0 : Fin 2) d.startIndexMap = 0; rw [hsim]; simp)]
    rfl
  | ⟨1, _⟩ =>
    -- axis 1 is the offset axis: start 0, no batching coordinate, the result's coordinate 2
    have hb : (1 : Fin 2) ∉ d.operandBatchingDims := by rw [hob]; exact List.not_mem_nil
    have hk : (1 : Fin 2) ∈ d.sKept := by rw [hsk]; exact List.mem_singleton.mpr rfl
    have hm : (1 : Fin 2) ∉ d.startIndexMap := by rw [hsim]; simp
    show d.start (ix3 a e k) idx 1 + d.batchCoord (ix3 a e k) 1 + d.offCoord (ix3 a e k) 1 = k.val
    rw [GatherDims.batchCoord_eq_zero _ _ _ hb]
    unfold GatherDims.start GatherDims.offCoord
    rw [dif_neg hm, dif_pos hk, getElem_of_eq hoff _ 0 _ (by rw [hsk]; rfl) (by simp)]
    simp only [Nat.add_zero, Nat.zero_add]
    rfl

end Cert.LibGather3

end
-- ==== Proof.RefSide.lean ====
/-
  The reference's three results are the specification's functions.

  The reference cuts the table to 1024 rows and scales it; its first result adds rows 0..511 of that to every
  batch.  For the other two it builds, per batch b and position r, the row word (offset b) + r, replaces a negative
  word by itself + 1024, and gathers that row, the gather clamping the signed word into 0..1023.  With every offset
  between 0 and 512 the word is the natural number offset + r ≤ 1023: never negative, never clamped.
-/
import proofs.«430714_j63221918597563_4_alg».proof.Proof.Gen.ReferenceIdeal.Read
import proofs.«430714_j63221918597563_4_alg».proof.Proof.Spec
import proofs.«430714_j63221918597563_4_alg».proof.Proof.Words
import proofs.«430714_j63221918597563_4_alg».proof.Proof.LibGather3
import Idealize.ShloMosaic.Lib.ValueIdx

noncomputable section

namespace Cert.RefSide

open Cert.ReferenceIdeal Cert.ReferenceIdeal.Gen Cert.ReferenceIdeal.Read
open Idealize.ShloMosaic Idealize.ShloMosaic.ValueIdx

/-- Entry (r, d) of the reference's scaled table. -/
theorem table_apply (x5 : S1250x1024.Idx → EReal) (r d : Fin 1024) :
    val_main_v2 (F := Ideal) x5 (ix2 r d) = Cert.Spec.enc x5 r d := by
  rw [val_main_v2_apply, val_main_v0_apply, val_main_v1_apply, val_main_cst_apply]
  have e : idx_main_v0 (ix2 r d) = ix2 (⟨r.val, by omega⟩ : Fin 1250) d := by
    funext a
    match a with
    | ⟨0, _⟩ => rfl
    | ⟨1, _⟩ => rfl
  rw [e]
  rfl

/-- The first result: every batch gets the table's rows 0..511. -/
theorem fixed_eq (x0 : S64x512x1024.Idx → EReal) (x5 : S1250x1024.Idx → EReal) :
    val_main_v6 (F := Ideal) x0 x5 = Cert.Spec.fixedSum x0 x5 := by
  funext i
  obtain ⟨b, r, d, rfl⟩ : ∃ (b : Fin 64) (r : Fin 512) (d : Fin 1024), i = ix3 b r d := ⟨i 0, i 1, i 2, eq_ix3 i⟩
  rw [val_main_v6_apply, val_main_v5_apply, val_main_v4_apply, val_main_v3_apply]
  have e : idx_main_v3 (idx_main_v4 (idx_main_v5 (ix3 b r d))) = ix2 (⟨r.val, by omega⟩ : Fin 1024) d := by
    funext a
    match a with
    | ⟨0, _⟩ => rfl
    | ⟨1, _⟩ => rfl
  rw [e, table_apply]
  rfl

/-- The row word the first gather reads for batch b at position r. -/
theorem rowWord_v18 (x3 : S64.Idx → BitVec 32) (h : ∀ b : Fin 64, (x3 (ix1 b)).toNat ≤ 512) (b : Fin 64) (r : Fin 512) :
    val_main_v18 (F := Ideal) x3 (ix3 b r (0 : Fin 1)) = IntOp.addi (x3 (ix1 b)) (BitVec.ofNat 32 r.val) := by
  have e1 : idx_main_v7 (idx_main_v10 (idx_main_v18 (ix3 b r (0 : Fin 1)))) = ix1 b := by
    funext a
    match a with
    | ⟨0, _⟩ => rfl
  rw [val_main_v18_apply, val_main_v17_apply, val_main_v14_apply, val_main_v16_apply, val_main_v12_apply,
    val_main_v13_apply, val_main_c_apply, val_main_v10_apply, val_main_v7_apply, val_main_v11_apply,
    val_main_v9_apply, val_main_v8_apply, e1]
  exact Cert.Words.select_nonneg _ (h b) r.val r.isLt _

/-- The row word the second gather reads: the same operations again. -/
theorem rowWord_v32 (x3 : S64.Idx → BitVec 32) (h : ∀ b : Fin 64, (x3 (ix1 b)).toNat ≤ 512) (b : Fin 64) (r : Fin 512) :
    val_main_v32 (F := Ideal) x3 (ix3 b r (0 : Fin 1)) = IntOp.addi (x3 (ix1 b)) (BitVec.ofNat 32 r.val) := by
  have e1 : idx_main_v21 (idx_main_v24 (idx_main_v32 (ix3 b r (0 : Fin 1)))) = ix1 b := by
    funext a
    match a with
    | ⟨0, _⟩ => rfl
  rw [val_main_v32_apply, val_main_v31_apply, val_main_v28_apply, val_main_v30_apply, val_main_v26_apply,
    val_main_v27_apply, val_main_c_1_apply, val_main_v24_apply, val_main_v21_apply, val_main_v25_apply,
    val_main_v23_apply, val_main_v22_apply, e1]
  exact Cert.Words.select_nonneg _ (h b) r.val r.isLt _

/-- The second result: batch b gets the table's rows offset b .. offset b + 511. -/
theorem shifted_eq_v20 (x1 : S64x512x1024.Idx → EReal) (x3 : S64.Idx → BitVec 32) (x5 : S1250x1024.Idx → EReal)
    (h : ∀ b : Fin 64, (x3 (ix1 b)).toNat ≤ 512) :
    val_main_v20 (F := Ideal) x1 x3 x5 = Cert.Spec.shiftedSum x1 x3 x5 := by
  funext i
  obtain ⟨b, r, d, rfl⟩ : ∃ (b : Fin 64) (r : Fin 512) (d : Fin 1024), i = ix3 b r d := ⟨i 0, i 1, i 2, eq_ix3 i⟩
  rw [val_main_v20_apply]
  unfold val_main_v19
  rw [Cert.LibGather3.gather_rows3_apply (w := 32) gather_S1024x1024_S64x512x1_S64x512x1024_2_0_n_n_0_2_11024
    rfl rfl rfl rfl rfl rfl _ _ b r d (by decide), table_apply]
  show x1 (ix3 b r d) + Cert.Spec.enc x5 _ d = x1 (ix3 b r d) + Cert.Spec.enc x5 (Cert.Spec.rowAt x3 b r) d
  congr 2
  apply Fin.ext
  show min (val_main_v18 (F := Ideal) x3 (ix3 b r (0 : Fin 1))).toInt.toNat (1024 - 1) = min ((x3 (ix1 b)).toNat + r.val) 1023
  rw [rowWord_v18 x3 h b r, Cert.Words.add_toInt_toNat _ (h b) _ r.isLt]

/-- The third result: the same rows added to the third array. -/
theorem shifted_eq_v34 (x2 : S64x512x1024.Idx → EReal) (x3 : S64.Idx → BitVec 32) (x5 : S1250x1024.Idx → EReal)
    (h : ∀ b : Fin 64, (x3 (ix1 b)).toNat ≤ 512) :
    val_main_v34 (F := Ideal) x2 x3 x5 = Cert.Spec.shiftedSum x2 x3 x5 := by
  funext i
  obtain ⟨b, r, d, rfl⟩ : ∃ (b : Fin 64) (r : Fin 512) (d : Fin 1024), i = ix3 b r d := ⟨i 0, i 1, i 2, eq_ix3 i⟩
  rw [val_main_v34_apply]
  unfold val_main_v33
  rw [Cert.LibGather3.gather_rows3_apply (w := 32) gather_S1024x1024_S64x512x1_S64x512x1024_2_0_n_n_0_2_11024
    rfl rfl rfl rfl rfl rfl _ _ b r d (by decide), table_apply]
  show x2 (ix3 b r d) + Cert.Spec.enc x5 _ d = x2 (ix3 b r d) + Cert.Spec.enc x5 (Cert.Spec.rowAt x3 b r) d
  congr 2
  apply Fin.ext
  show min (val_main_v32 (F := Ideal) x3 (ix3 b r (0 : Fin 1))).toInt.toNat (1024 - 1) = min ((x3 (ix1 b)).toNat + r.val) 1023
  rw [rowWord_v32 x3 h b r, Cert.Words.add_toInt_toNat _ (h b) _ r.isLt]

end Cert.RefSide

end
-- ==== Proof.lean ====
/-
  Positional encodings added to three batched arrays, one of them at per-batch offsets.

  Both programs cut the positional table pe to its first 1024 rows and multiply every entry by the same scale word
  (1/32): enc(r, d) = pe(r, d) * s.  For batch b, position r < 512, feature d < 1024, with L b the b-th offset,

    first result    lang(b, r, d)    + enc(r, d)
    second result   frames(b, r, d)  + enc(L b + r, d)
    third result    actions(b, r, d) + enc(L b + r, d).

  The reference forms the row numbers L b + r as 32-bit words, moves a negative word up by 1024, and gathers whole
  rows, the gather clamping into 0 .. 1023.  The kernel, at grid point b, copies the 524288 flat entries that start
  at entry 1024 (L b) of the flattened table (rows L b .. L b + 511) into a scratch and adds them to blocks b of the
  second and third arrays, and adds rows 0 .. 511 to block b of the first.  The statement's precondition bounds every
  offset: 0 ≤ L b ≤ 512.  That is exactly when every row the reference gathers, L b + r with r < 512, is a row of the
  1024-row table, and exactly when the kernel's copy stays inside the flattened table; under it the word arithmetic
  never wraps, no word is negative and nothing is clamped, so both programs compute the three functions above.
  No law of the extended reals is needed beyond reading both sides entry by entry: the same two numbers are added
  in the same order on both sides.

  The kernel keeps no sanctioned rewrite (its idealization is its own text read on the extended reals).
-/
import proofs.«430714_j63221918597563_4_alg».proof.Defs
import proofs.«430714_j63221918597563_4_alg».proof.Proof.Gen.Kernel
import proofs.«430714_j63221918597563_4_alg».proof.Proof.Gen.Kernel.Skeleton
import proofs.«430714_j63221918597563_4_alg».proof.Proof.Gen.Kernel.Launch
import proofs.«430714_j63221918597563_4_alg».proof.Proof.Gen.Kernel.Points
import proofs.«430714_j63221918597563_4_alg».proof.Proof.Gen.Kernel.Frame
import proofs.«430714_j63221918597563_4_alg».proof.Proof.Gen.KernelIdeal
import proofs.«430714_j63221918597563_4_alg».proof.Proof.Gen.KernelIdeal.Skeleton
import proofs.«430714_j63221918597563_4_alg».proof.Proof.Gen.KernelIdeal.Launch
import proofs.«430714_j63221918597563_4_alg».proof.Proof.Gen.KernelIdeal.Points
import proofs.«430714_j63221918597563_4_alg».proof.Proof.Gen.KernelIdeal.Frame
import proofs.«430714_j63221918597563_4_alg».proof.Proof.Gen.ReferenceIdeal
import proofs.«430714_j63221918597563_4_alg».proof.Proof.Gen.Pre_finite_inputs
import proofs.«430714_j63221918597563_4_alg».proof.Proof.Gen.ReferenceIdeal.Run
import proofs.«430714_j63221918597563_4_alg».proof.Proof.Gen.ReferenceIdeal.Read
import proofs.«430714_j63221918597563_4_alg».proof.Proof.PreWords
import proofs.«430714_j63221918597563_4_alg».proof.Proof.HypsKernel
import proofs.«430714_j63221918597563_4_alg».proof.Proof.HypsKernelIdeal
import proofs.«430714_j63221918597563_4_alg».proof.Proof.KernelValue
import proofs.«430714_j63221918597563_4_alg».proof.Proof.RefSide
import Idealize.ShloMosaic.Adequacy
import Idealize.ShloMosaic.Init

noncomputable section

namespace Cert.Proof

open Idealize.ShloMosaic Idealize.SL.Sem Idealize.ShloMosaic.ValueIdx

/-- The kernel as printed runs: its one assumed condition, on the offset word, follows from the bound on the offsets. -/
theorem frame_k : Cert.frame_Kernel := fun m ρ h =>
  Cert.Kernel.Gen.frame m ρ (Cert.Kernel.HypsOfPre.ok m) (Cert.Kernel.HypsOfPre.hyps m h)

/-- So does the kernel read on the extended reals. -/
theorem frame_ki : Cert.frame_KernelIdeal := fun m ρ h =>
  Cert.KernelIdeal.Gen.frame m ρ (Cert.KernelIdeal.HypsOfPre.ok m) (Cert.KernelIdeal.HypsOfPre.hyps m h)

/-- The reference is a straight line of host operations: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Nothing was rewritten. -/
theorem preserves : Cert.preserves_Kernel_KernelIdeal := trivial

/-- Both programs end with the three results at lang + enc, frames + shifted enc, actions + shifted enc. -/
theorem algebraic : Cert.algebraic_KernelIdeal_ReferenceIdeal := by
  intro m ρ m' ρ' hpre hagree
  have hL : ∀ (c : Dev Cert.KernelIdeal.nD) (b : Fin 64), ((m ((c.tc : Thread Cert.KernelIdeal.nD Cert.KernelIdeal.τ).loc Cert.KernelIdeal.main_arg3)) (ix1 b)).toNat ≤ 512 :=
    fun c b => Cert.PreWords.offsets_le _ _ _ _ _ _ (hpre c) b
  refine ⟨fun c => Cert.Spec.fixedSum (m ((c.tc : Thread Cert.KernelIdeal.nD Cert.KernelIdeal.τ).loc Cert.KernelIdeal.main_arg0)) (m ((c.tc : Thread Cert.KernelIdeal.nD Cert.KernelIdeal.τ).loc Cert.KernelIdeal.main_arg5)),
    fun c => Cert.Spec.shiftedSum (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)),
    fun c => Cert.Spec.shiftedSum (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)),
    Cert.KernelIdeal.Value.run m ρ (Cert.KernelIdeal.HypsOfPre.ok m) (Cert.KernelIdeal.HypsOfPre.hyps m hpre) hL, ?_⟩
  refine (θ_run Cert.ReferenceIdeal.defs _ _).mono (fun _ h c => ?_) (Cert.ReferenceIdeal.Value.run (F := Ideal) m' ρ')
  obtain ⟨h6, h20, h34, hargs⟩ := h c
  obtain ⟨a0, a1, a2, a3, a4, a5⟩ := hagree c
  refine ⟨?_, ?_, ?_, hargs⟩
  · rw [h6, Cert.ReferenceIdeal.Read.val_main_v6_eq, Cert.RefSide.fixed_eq, a0, a5]
  · rw [h20, Cert.ReferenceIdeal.Read.val_main_v20_eq, Cert.RefSide.shifted_eq_v20 _ _ _ (by rw [a3]; exact hL c), a1, a3, a5]
  · rw [h34, Cert.ReferenceIdeal.Read.val_main_v34_eq, Cert.RefSide.shifted_eq_v34 _ _ _ (by rw [a3]; exact hL c), a2, a3, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
